-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x32000 : Shape := ⟨3, ![4, 1024, 32000]⟩
abbrev S4x1024 : Shape := ⟨2, ![4, 1024]⟩
abbrev S_ : Shape := ⟨0, ![]⟩

class Facts : Prop where
  bcast_S_S4x1024x32000 : S_.BroadcastsInDim S4x1024x32000 (![] : Fin 0 → Fin S4x1024x32000.rank)
  reducesTo_S4x1024x32000_S_d0_1_2 : S4x1024x32000.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x32000 .f32) (main_arg1 : IVec S4x1024 32) : IVec S_ 1 :=
  let main_v0 : FVec F S4x1024x32000 .f32 := Host.absf main_arg0
  let main_cst : FVec F S_ .f32 := constant S_ .f32 0x7F800000#32
  let main_v1 : FVec F S4x1024x32000 .f32 := broadcastInDim S4x1024x32000 ![] bcast_S_S4x1024x32000 main_cst
  let main_v2 : IVec S4x1024x32000 1 := cmpf .olt main_v0 main_v1
  let main_c : IVec S_ 1 := constantI S_ 1 1#1
  let main_v3 : IVec S_ 1 := (fun x v => Host.reduce IntOp.andi x v reducesTo_S4x1024x32000_S_d0_1_2 h_S_) main_v2 main_c
  let main_c_0 : IVec S_ 32 := constantI S_ 32 0#32
  let main_v4 : IVec S4x1024 32 := broadcastInDim S4x1024 ![] bcast_S_S4x1024 main_c_0
  let main_v5 : IVec S4x1024 1 := cmpi .sge main_arg1 main_v4
  let main_c_1 : IVec S_ 1 := constantI S_ 1 1#1
  let main_v6 : IVec S_ 1 := (fun x v => Host.reduce IntOp.andi x v reducesTo_S4x1024_S_d0_1 h_S_) main_v5 main_c_1
  let main_v7 : IVec S_ 1 := andi main_v3 main_v6
  let main_c_2 : IVec S_ 32 := constantI S_ 32 32000#32
  let main_v8 : IVec S4x1024 32 := broadcastInDim S4x1024 ![] bcast_S_S4x1024 main_c_2
  let main_v9 : IVec S4x1024 1 := cmpi .slt main_arg1 main_v8
  let main_c_3 : IVec S_ 1 := constantI S_ 1 1#1
  let main_v10 : IVec S_ 1 := (fun x v => Host.reduce IntOp.andi x v reducesTo_S4x1024_S_d0_1 h_S_) main_v9 main_c_3
  let main_v11 : IVec S_ 1 := andi main_v7 main_v10
  main_v11
-- ==== Kernel.lean ====
abbrev S4x1024x32000 : Shape := ⟨3, ![4, 1024, 32000]⟩
abbrev S4x1024 : Shape := ⟨2, ![4, 1024]⟩
abbrev S4096x32000 : Shape := ⟨2, ![4096, 32000]⟩
abbrev S4096x1 : Shape := ⟨2, ![4096, 1]⟩
abbrev S2048x640 : Shape := ⟨2, ![2048, 640]⟩
abbrev S2048x1 : Shape := ⟨2, ![2048, 1]⟩
abbrev S2048 : Shape := ⟨1, ![2048]⟩
abbrev S_ : Shape := ⟨0, ![]⟩
abbrev S4 : Shape := ⟨1, ![4]⟩

abbrev nBuf : Space → Nat
  | .hbm => 29
  | .vmem => 10
  | .smem => 0
  | _ => 0

abbrev bufTy : (tb : Table) → Fin (tcTables nBuf tb) → BufTy
  | .hbm, ⟨0, _⟩ => ⟨S4x1024x32000, .f32⟩
  | .hbm, ⟨1, _⟩ => ⟨S4x1024, .i32⟩
  | .hbm, ⟨2, _⟩ => ⟨S4096x32000, .f32⟩
  | .hbm, ⟨3, _⟩ => ⟨S4096x1, .i32⟩
  | .hbm, ⟨4, _⟩ => ⟨S4096x1, .f32⟩
  | .hbm, ⟨5, _⟩ => ⟨S4096x1, .f32⟩
  | .hbm, ⟨6, _⟩ => ⟨S4096x1, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S2048x640, .f32⟩
  | .local _ .vmem, ⟨1, _⟩ => ⟨S2048x640, .f32⟩
  | .local _ .vmem, ⟨2, _⟩ => ⟨S2048x1, .i32⟩
  | .local _ .vmem, ⟨3, _⟩ => ⟨S2048x1, .i32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | _, _ => ⟨S4x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x1024x32000_S4096x32000 : S4x1024x32000.ShapeCasts S4096x32000
  shapeCasts_S4x1024_S4096x1 : S4x1024.ShapeCasts S4096x1
  inb_S2048x1_S2048x1_0_0 : ∀ a, (![0, 0] : Fin 2 → Nat) a + S2048x1.size a ≤ S2048x1.size a
  h_S2048x1 : 0 < S2048x1.numel
  inb_S2048x640_S2048x640_0_0 : ∀ a, (![0, 0] : Fin 2 → Nat) a + S2048x640.size a ≤ S2048x640.size a
  h_S2048x640 : 0 < S2048x640.numel
  shapeCasts_S2048x640_S2048x640 : S2048x640.ShapeCasts S2048x640
  shapeCasts_S2048x1_S2048x1 : S2048x1.ShapeCasts S2048x1
  iota_S2048x640_d1_w32 : S2048x640.Iotas .tc 32 [1]
  broadcasts_S2048x1_S2048x640 : S2048x1.Broadcasts S2048x640
  reduces_S2048x640_S2048 : S2048x640.Reduces [1] S2048
  shapeCasts_S2048_S2048x1 : S2048.ShapeCasts S2048x1
  shapeCasts_S4096x1_S4x1024 : S4096x1.ShapeCasts S4x1024
  reducesTo_S4x1024_S4_d1 : S4x1024.ReducesTo [1] S4
  h_S_ : 0 < S_.numel
  reducesTo_S4x1024_S_d0_1 : S4x1024.ReducesTo [0, 1] S_
  bcast_S_S4 : S_.BroadcastsInDim S4 (![] : Fin 0 → Fin S4.rank)
  reducesTo_S4_S_d0 : S4.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x640.size a ≤ S4096x32000.size a
  hwx0_0 : ∀ i : grid0.Coords, EltTy.bits .f32 = 32 ∨ (Rect.block (s := S4096x32000) S2048x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S4096x1.size a
  hwx0_1 : ∀ i : grid0.Coords, EltTy.bits .i32 = 32 ∨ (Rect.block (s := S4096x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

abbrev win0_0 : Pipeline.Window sig grid0 :=
  Pipeline.Window.ofSpec (Memref.whole main_v0) S2048x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x1024x32000 : Shape := ⟨3, ![4, 1024, 32000]⟩
abbrev S4x1024 : Shape := ⟨2, ![4, 1024]⟩
abbrev S4x1024x1 : Shape := ⟨3, ![4, 1024, 1]⟩
abbrev S_ : Shape := ⟨0, ![]⟩
abbrev S4x1024x1x1 : Shape := ⟨4, ![4, 1024, 1, 1]⟩
abbrev S1 : Shape := ⟨1, ![1]⟩
abbrev S1x1x1x1 : Shape := ⟨4, ![1, 1, 1, 1]⟩
abbrev S4 : Shape := ⟨1, ![4]⟩

abbrev nBuf : Space → Nat
  | .hbm => 101
  | .vmem => 0
  | .smem => 0
  | _ => 0

abbrev bufTy : (tb : Table) → Fin (tcTables nBuf tb) → BufTy
  | .hbm, ⟨0, _⟩ => ⟨S4x1024x32000, .f32⟩
  | .hbm, ⟨1, _⟩ => ⟨S4x1024, .i32⟩
  | .hbm, ⟨2, _⟩ => ⟨S4x1024x1, .i32⟩
  | .hbm, ⟨3, _⟩ => ⟨S4x1024x32000, .f32⟩
  | .hbm, ⟨4, _⟩ => ⟨S_, .f32⟩
  | .hbm, ⟨5, _⟩ => ⟨S4x1024x32000, .f32⟩
  | .hbm, ⟨6, _⟩ => ⟨S4x1024x32000, .f32⟩
  | .hbm, ⟨7, _⟩ => ⟨S4x1024x32000, .f32⟩
  | .hbm, ⟨8, _⟩ => ⟨S4x1024x32000, .f32⟩
  | .hbm, ⟨9, _⟩ => ⟨S4x1024x32000, .i1⟩
  | .hbm, ⟨10, _⟩ => ⟨S4x1024x32000, .f32⟩
  | .hbm, ⟨11, _⟩ => ⟨S4x1024x32000, .f32⟩
  | .hbm, ⟨12, _⟩ => ⟨S4x1024x32000, .f32⟩
  | .hbm, ⟨13, _⟩ => ⟨S4x1024x32000, .f32⟩
  | .hbm, ⟨14, _⟩ => ⟨S4x1024x32000, .f32⟩
  | .hbm, ⟨15, _⟩ => ⟨S4x1024x32000, .f32⟩
  | .hbm, ⟨16, _⟩ => ⟨S4x1024x32000, .f32⟩
  | .hbm, ⟨17, _⟩ => ⟨S4x1024x32000, .f32⟩
  | .hbm, ⟨18, _⟩ => ⟨S4x1024x32000, .f32⟩
  | .hbm, ⟨19, _⟩ => ⟨S4x1024x32000, .f32⟩
  | .hbm, ⟨20, _⟩ => ⟨S4x1024x32000, .f32⟩
  | .hbm, ⟨21, _⟩ => ⟨S_, .f32⟩
  | .hbm, ⟨22, _⟩ => ⟨S4x1024x32000, .f32⟩
  | .hbm, ⟨23, _⟩ => ⟨S4x1024x32000, .f32⟩
  | .hbm, ⟨24, _⟩ => ⟨S4x1024x32000, .f32⟩
  | .hbm, ⟨25, _⟩ => ⟨S4x1024x32000, .f32⟩
  | .hbm, ⟨26, _⟩ => ⟨S4x1024x32000, .i1⟩
  | .hbm, ⟨27, _⟩ => ⟨S4x1024x32000, .f32⟩
  | .hbm, ⟨28, _⟩ => ⟨S4x1024x32000, .f32⟩
  | .hbm, ⟨29, _⟩ => ⟨S4x1024x32000, .f32⟩
  | .hbm, ⟨30, _⟩ => ⟨S4x1024x32000, .f32⟩
  | .hbm, ⟨31, _⟩ => ⟨S4x1024x32000, .f32⟩
  | .hbm, ⟨32, _⟩ => ⟨S4x1024x32000, .f32⟩
  | .hbm, ⟨33, _⟩ => ⟨S4x1024x32000, .f32⟩
  | .hbm, ⟨34, _⟩ => ⟨S4x1024x32000, .f32⟩
  | .hbm, ⟨35, _⟩ => ⟨S4x1024x32000, .f32⟩
  | .hbm, ⟨36, _⟩ => ⟨S_, .i32⟩
  | .hbm, ⟨37, _⟩ => ⟨S4x1024x1, .i32⟩
  | .hbm, ⟨38, _⟩ => ⟨S4x1024x1, .i1⟩
  | .hbm, ⟨39, _⟩ => ⟨S_, .i32⟩
  | .hbm, ⟨40, _⟩ => ⟨S4x1024x1, .i32⟩
  | .hbm, ⟨41, _⟩ => ⟨S4x1024x1, .i32⟩
  | .hbm, ⟨42, _⟩ => ⟨S4x1024x1, .i32⟩
  | .hbm, ⟨43, _⟩ => ⟨S4x1024x1x1, .i32⟩
  | .hbm, ⟨44, _⟩ => ⟨S1, .i32⟩
  | .hbm, ⟨45, _⟩ => ⟨S_, .i32⟩
  | .hbm, ⟨46, _⟩ => ⟨S4x1024x1x1, .i32⟩
  | .hbm, ⟨47, _⟩ => ⟨S4x1024x1x1, .i1⟩
  | .hbm, ⟨48, _⟩ => ⟨S1x1x1x1, .i32⟩
  | .hbm, ⟨49, _⟩ => ⟨S4x1024x1x1, .i32⟩
  | .hbm, ⟨50, _⟩ => ⟨S4x1024x1x1, .i1⟩
  | .hbm, ⟨51, _⟩ => ⟨S4x1024x1x1, .i1⟩
  | .hbm, ⟨52, _⟩ => ⟨S_, .i1⟩
  | .hbm, ⟨53, _⟩ => ⟨S4x1024x1, .i1⟩
  | .hbm, ⟨54, _⟩ => ⟨S4x1024x1, .f32⟩
  | .hbm, ⟨55, _⟩ => ⟨S_, .f32⟩
  | .hbm, ⟨56, _⟩ => ⟨S4x1024x1, .f32⟩
  | .hbm, ⟨57, _⟩ => ⟨S4x1024x1, .f32⟩
  | .hbm, ⟨58, _⟩ => ⟨S4x1024, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .i32⟩
  | .hbm, ⟨65, _⟩ => ⟨S4x1024x1, .i32⟩
  | .hbm, ⟨66, _⟩ => ⟨S4x1024x1, .i1⟩
  | .hbm, ⟨67, _⟩ => ⟨S_, .i32⟩
  | .hbm, ⟨68, _⟩ => ⟨S4x1024x1, .i32⟩
  | .hbm, ⟨69, _⟩ => ⟨S4x1024x1, .i32⟩
  | .hbm, ⟨70, _⟩ => ⟨S4x1024x1, .i32⟩
  | .hbm, ⟨71, _⟩ => ⟨S4x1024x1x1, .i32⟩
  | .hbm, ⟨72, _⟩ => ⟨S1, .i32⟩
  | .hbm, ⟨73, _⟩ => ⟨S_, .i32⟩
  | .hbm, ⟨74, _⟩ => ⟨S4x1024x1x1, .i32⟩
  | .hbm, ⟨75, _⟩ => ⟨S4x1024x1x1, .i1⟩
  | .hbm, ⟨76, _⟩ => ⟨S1x1x1x1, .i32⟩
  | .hbm, ⟨77, _⟩ => ⟨S4x1024x1x1, .i32⟩
  | .hbm, ⟨78, _⟩ => ⟨S4x1024x1x1, .i1⟩
  | .hbm, ⟨79, _⟩ => ⟨S4x1024x1x1, .i1⟩
  | .hbm, ⟨80, _⟩ => ⟨S_, .i1⟩
  | .hbm, ⟨81, _⟩ => ⟨S4x1024x1, .i1⟩
  | .hbm, ⟨82, _⟩ => ⟨S4x1024x1, .f32⟩
  | .hbm, ⟨83, _⟩ => ⟨S_, .f32⟩
  | .hbm, ⟨84, _⟩ => ⟨S4x1024x1, .f32⟩
  | .hbm, ⟨85, _⟩ => ⟨S4x1024x1, .f32⟩
  | .hbm, ⟨86, _⟩ => ⟨S4x1024, .f32⟩
  | .hbm, ⟨87, _⟩ => ⟨S_, .f32⟩
  | .hbm, ⟨88, _⟩ => ⟨S4, .f32⟩
  | .hbm, ⟨89, _⟩ => ⟨S_, .f32⟩
  | .hbm, ⟨90, _⟩ => ⟨S4, .f32⟩
  | .hbm, ⟨91, _⟩ => ⟨S4, .f32⟩
  | .hbm, ⟨92, _⟩ => ⟨S4, .f32⟩
  | .hbm, ⟨93, _⟩ => ⟨S_, .f32⟩
  | .hbm, ⟨94, _⟩ => ⟨S4, .f32⟩
  | .hbm, ⟨95, _⟩ => ⟨S4, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S4x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_call0_call0_v1 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_v8 : Ref sig .tc := ⟨.hbm, 13, rfl⟩
abbrev main_call0_call0_v9 : Ref sig .tc := ⟨.hbm, 14, rfl⟩
abbrev main_call0_call0_v10 : Ref sig .tc := ⟨.hbm, 15, rfl⟩
abbrev main_call0_call0_v11 : Ref sig .tc := ⟨.hbm, 16, rfl⟩
abbrev main_call0_v1 : Ref sig .tc := ⟨.hbm, 17, rfl⟩
abbrev main_v1 : Ref sig .tc := ⟨.hbm, 18, rfl⟩
abbrev main_v2 : Ref sig .tc := ⟨.hbm, 19, rfl⟩
abbrev main_call1_v0 : Ref sig .tc := ⟨.hbm, 20, rfl⟩
abbrev main_call1_call0_cst : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_call0_v2 : Ref sig .tc := ⟨.hbm, 24, rfl⟩
abbrev main_call1_call0_v3 : Ref sig .tc := ⟨.hbm, 25, rfl⟩
abbrev main_call1_call0_v4 : Ref sig .tc := ⟨.hbm, 26, rfl⟩
abbrev main_call1_call0_v5 : Ref sig .tc := ⟨.hbm, 27, rfl⟩
abbrev main_call1_call0_v6 : Ref sig .tc := ⟨.hbm, 28, rfl⟩
abbrev main_call1_call0_v7 : Ref sig .tc := ⟨.hbm, 29, rfl⟩
abbrev main_call1_call0_v8 : Ref sig .tc := ⟨.hbm, 30, rfl⟩
abbrev main_call1_call0_v9 : Ref sig .tc := ⟨.hbm, 31, rfl⟩
abbrev main_call1_call0_v10 : Ref sig .tc := ⟨.hbm, 32, rfl⟩
abbrev main_call1_call0_v11 : Ref sig .tc := ⟨.hbm, 33, rfl⟩
abbrev main_call1_v1 : Ref sig .tc := ⟨.hbm, 34, rfl⟩
abbrev main_v3 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v4 : Ref sig .tc := ⟨.hbm, 57, rfl⟩
abbrev main_v5 : Ref sig .tc := ⟨.hbm, 58, rfl⟩
abbrev main_cst : Ref sig .tc := ⟨.hbm, 59, rfl⟩
abbrev main_v6 : Ref sig .tc := ⟨.hbm, 60, rfl⟩
abbrev main_cst_0 : Ref sig .tc := ⟨.hbm, 61, rfl⟩
abbrev main_v7 : Ref sig .tc := ⟨.hbm, 62, rfl⟩
abbrev main_v8 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v9 : Ref sig .tc := ⟨.hbm, 85, rfl⟩
abbrev main_v10 : Ref sig .tc := ⟨.hbm, 86, rfl⟩
abbrev main_cst_1 : Ref sig .tc := ⟨.hbm, 87, rfl⟩
abbrev main_v11 : Ref sig .tc := ⟨.hbm, 88, rfl⟩
abbrev main_cst_2 : Ref sig .tc := ⟨.hbm, 89, rfl⟩
abbrev main_v12 : Ref sig .tc := ⟨.hbm, 90, rfl⟩
abbrev main_v13 : Ref sig .tc := ⟨.hbm, 91, rfl⟩
abbrev main_v14 : Ref sig .tc := ⟨.hbm, 92, rfl⟩
abbrev main_cst_3 : Ref sig .tc := ⟨.hbm, 93, rfl⟩
abbrev main_v15 : Ref sig .tc := ⟨.hbm, 94, rfl⟩
abbrev main_v16 : Ref sig .tc := ⟨.hbm, 95, rfl⟩
abbrev main_cst_4 : Ref sig .tc := ⟨.hbm, 96, rfl⟩
abbrev main_v17 : Ref sig .tc := ⟨.hbm, 97, rfl⟩
abbrev main_cst_5 : Ref sig .tc := ⟨.hbm, 98, rfl⟩
abbrev main_v18 : Ref sig .tc := ⟨.hbm, 99, rfl⟩
abbrev main_v19 : Ref sig .tc := ⟨.hbm, 100, rfl⟩

abbrev nD : Nat := 1
abbrev τ : Topo := Topo.v7x

variable {F : FTy → Type} [FloatOps F]

class Facts₀ : Prop where
  bcast_S4x1024_S4x1024x1_0_1 : S4x1024.BroadcastsInDim S4x1024x1 (![0, 1] : Fin 2 → Fin S4x1024x1.rank)
  bcast_S_S4x1024x32000 : S_.BroadcastsInDim S4x1024x32000 (![] : Fin 0 → Fin S4x1024x32000.rank)
  bcast_S_S4x1024x1 : S_.BroadcastsInDim S4x1024x1 (![] : Fin 0 → Fin S4x1024x1.rank)
  shapeCasts_S4x1024x1_S4x1024x1x1 : S4x1024x1.ShapeCasts S4x1024x1x1
  bcast_S_S4x1024x1x1 : S_.BroadcastsInDim S4x1024x1x1 (![] : Fin 0 → Fin S4x1024x1x1.rank)
  bcast_S1_S1x1x1x1_3 : S1.BroadcastsInDim S1x1x1x1 (![3] : Fin 1 → Fin S1x1x1x1.rank)
  bcast_S1x1x1x1_S4x1024x1x1_0_1_2_3 : S1x1x1x1.BroadcastsInDim S4x1024x1x1 (![0, 1, 2, 3] : Fin 4 → Fin S4x1024x1x1.rank)
  reducesTo_S4x1024x1x1_S4x1024x1_d3 : S4x1024x1x1.ReducesTo [3] S4x1024x1
  h_S_ : 0 < S_.numel
  shapeCasts_S4x1024x1_S4x1024 : S4x1024x1.ShapeCasts S4x1024
  reducesTo_S4x1024_S_d0_1 : S4x1024.ReducesTo [0, 1] S_
  reducesTo_S4x1024x32000_S4_d1_2 : S4x1024x32000.ReducesTo [1, 2] S4
  reducesTo_S4x1024_S4_d1 : S4x1024.ReducesTo [1] S4
  bcast_S_S4 : S_.BroadcastsInDim S4 (![] : Fin 0 → Fin S4.rank)
  reducesTo_S4_S_d0 : S4.ReducesTo [0] S_
  gather_S4x1024x32000_S4x1024x1x1_S4x1024x1_n_2_01_01_2_3_111_wf : GatherDims.WF S4x1024x32000 S4x1024x1x1 S4x1024x1 [] [2] [0, 1] [2] [0, 1] 3 ![1, 1, 1]

variable [Facts₀]

def gather_S4x1024x32000_S4x1024x1x1_S4x1024x1_n_2_01_01_2_3_111 : GatherDims S4x1024x32000 S4x1024x1x1 S4x1024x1 where
  offsetDims := []
  collapsedSliceDims := [2]
  operandBatchingDims := [0, 1]
  startIndicesBatchingDims := [0, 1]
  startIndexMap := [2]
  indexVectorDim := 3
  sliceSizes := ![1, 1, 1]
  wf := gather_S4x1024x32000_S4x1024x1x1_S4x1024x1_n_2_01_01_2_3_111_wf

class Facts : Prop extends Facts₀ where

variable [Facts]
-- ==== Proof.Spec.lean ====
/-
  The mathematics of the probabilistic sigmoid loss, stated once, over no program.

  For logits x[b, s, v] (4 x 1024 x 32000) and one token id per row, tok[b, s], write
  lσ(y) = log σ(y) = -softplus(-y), softplus(y) = max(y, 0) + log(1 + e^{-|y|}).  The loss is

      -(1/4096) · Σ_{b,s} lσ(x[b,s,tok[b,s]])
        + (1/4) · Σ_b  -( Σ_{s,v} lσ(-x[b,s,v]) - Σ_s lσ(-x[b,s,tok[b,s]]) ) / (1024 · 31999).

  Both programs end with the same arithmetic on three small arrays — the picked lσ(x), the per-batch sum of lσ(-x),
  and the picked lσ(-x); that arithmetic is `tail` below and is never opened.  What differs is how the three arrays
  are produced: the reference gathers one column per row and sums an axis pair, the kernel sweeps the vocabulary in
  50 tiles of 640 columns, adding per tile a row sum and two sums masked by "column = token".  The two laws that join
  them are `sum_tiles` (a sum over 50·640 columns is the sum over tiles of the sums inside a tile) and `sum_hit` (a sum
  masked by equality with one in-range column is that column's term).  Both are statements about finite sums in a
  commutative monoid, so they hold on the extended reals with no finiteness assumption.
-/
import Idealize.ShloMosaic.PureOps
import Idealize.ShloMosaic.PureOps.Ideal
import Idealize.ShloMosaic.PureOps.Ideal.Laws
import Idealize.ShloMosaic.Lib.ValueIdx
import Idealize.ShloMosaic.Lib.IdealHost
import Mathlib.Algebra.BigOperators.Fin
import Mathlib.Algebra.BigOperators.Intervals

noncomputable section

namespace Cert.LossSpec

open Idealize.ShloMosaic Idealize.ShloMosaic.ValueIdx

abbrev S4x1024x32000 : Shape := ⟨3, ![4, 1024, 32000]⟩
abbrev S4x1024 : Shape := ⟨2, ![4, 1024]⟩
abbrev S4 : Shape := ⟨1, ![4]⟩
abbrev S_ : Shape := ⟨0, ![]⟩

/-! ## The scalar functions -/

/-- softplus(y) = max(y, 0) + log(1 + e^{-|y|}) on the extended reals, with |y| = max(y, -y). -/
def softplus (y : EReal) : EReal := max y 0 + Ideal.log1p (Ideal.exp (-(max y (-y))))

/-- log σ(x) = -softplus(-x). -/
def logSig (x : EReal) : EReal := -(softplus (-x))

/-- log(1 - σ(x)) = log σ(-x). -/
def logSigNeg (x : EReal) : EReal := logSig (-x)

/-- A token word read as a column: its value modulo the vocabulary size (the identity on in-range tokens). -/
def tokIdx (w : BitVec 32) : Fin 32000 := ⟨w.toNat % 32000, Nat.mod_lt _ (by norm_num)⟩

/-- A token word is a column of the vocabulary: as a signed integer it lies in [0, 32000). -/
def InRange (w : BitVec 32) : Prop := 0 ≤ w.toInt ∧ w.toInt < 32000

theorem tokIdx_val {w : BitVec 32} (h : InRange w) : (tokIdx w).val = w.toNat := by
  obtain ⟨h0, h1⟩ := h
  have : w.toNat < 32000 := by
    have := BitVec.toInt_eq_toNat_cond w
    split at this <;> omega
  exact Nat.mod_eq_of_lt this

theorem toNat_lt {w : BitVec 32} (h : InRange w) : w.toNat < 32000 := by
  obtain ⟨h0, h1⟩ := h
  have := BitVec.toInt_eq_toNat_cond w
  split at this <;> omega

/-! ## The three arrays -/

/-- f of the logit at each row's token: f(x[b, s, tok[b, s]]). -/
def picked (f : EReal → EReal) (x : FVec Ideal S4x1024x32000 .f32) (tok : IVec S4x1024 32) : FVec Ideal S4x1024 .f32 :=
  fun j => f (x (ix3 (n0 := 4) (n1 := 1024) (n2 := 32000) (j 0) (j 1) (tokIdx (tok j))))

/-- Per batch entry, the sum of lσ(-x) over all rows and columns. -/
def batchSum (x : FVec Ideal S4x1024x32000 .f32) : FVec Ideal S4 .f32 :=
  fun j => ∑ s : Fin 1024, ∑ v : Fin 32000, logSigNeg (x (ix3 (n0 := 4) (n1 := 1024) (n2 := 32000) (j 0) s v))

/-! ## The shared tail -/

variable {F : FTy → Type} [FloatOps F]

/-- The scalar both programs compute from the picked lσ(x) `P`, the per-batch sums `SA` and the picked lσ(-x) `Q`:
    -(ΣP)/4096 + (Σ_b -(SA_b - Σ_s Q_{b,s}) / (1024·31999)) / 4, as host operations. -/
def tail (hA : S4x1024.ReducesTo [0, 1] S_) (hB : S4x1024.ReducesTo [1] S4) (hC : S4.ReducesTo [0] S_)
    (hD : S_.BroadcastsInDim S4 (![] : Fin 0 → Fin S4.rank)) (h0 : 0 < S_.numel)
    (P : FVec F S4x1024 .f32) (SA : FVec F S4 .f32) (Q : FVec F S4x1024 .f32) : FVec F S_ .f32 :=
  addf
    (Host.negf (Host.divf (Host.reduceAdd P (constant S_ .f32 0x00000000#32) hA h0) (constant S_ .f32 0x45800000#32)))
    (Host.divf
      (Host.reduceAdd
        (Host.divf (Host.negf (subf SA (Host.reduceAdd Q (constant S_ .f32 0x00000000#32) hB h0)))
          (broadcastInDim S4 ![] hD (constant S_ .f32 0x4BF9FE00#32)))
        (constant S_ .f32 0x00000000#32) hC h0)
      (constant S_ .f32 0x40800000#32))

/-- The loss as a function of the argument arrays. -/
def loss (hA : S4x1024.ReducesTo [0, 1] S_) (hB : S4x1024.ReducesTo [1] S4) (hC : S4.ReducesTo [0] S_)
    (hD : S_.BroadcastsInDim S4 (![] : Fin 0 → Fin S4.rank)) (h0 : 0 < S_.numel)
    (x : FVec Ideal S4x1024x32000 .f32) (tok : IVec S4x1024 32) : FVec Ideal S_ .f32 :=
  tail hA hB hC hD h0 (picked logSig x tok) (batchSum x) (picked logSigNeg x tok)

/-! ## The two laws on finite sums -/

/-- A sum over 50·640 columns is the sum over the 50 tiles of the sums inside each tile. -/
theorem sum_tiles {M : Type*} [AddCommMonoid M] (g : Fin 32000 → M) :
    ∑ u : Fin 50, ∑ k : Fin 640, g ⟨640 * u.val + k.val, by omega⟩ = ∑ v : Fin 32000, g v := by
  rw [← Finset.sum_product', Finset.univ_product_univ]
  refine Finset.sum_bij' (fun p _ => (⟨640 * p.1.val + p.2.val, by omega⟩ : Fin 32000))
    (fun v _ => ((⟨v.val / 640, by omega⟩ : Fin 50), (⟨v.val % 640, Nat.mod_lt _ (by norm_num)⟩ : Fin 640)))
    (fun _ _ => Finset.mem_univ _) (fun _ _ => Finset.mem_univ _) ?_ ?_ (fun _ _ => rfl)
  · rintro ⟨u, k⟩ _
    refine Prod.ext (Fin.ext ?_) (Fin.ext ?_)
    · show (640 * u.val + k.val) / 640 = u.val
      omega
    · show (640 * u.val + k.val) % 640 = k.val
      omega
  · intro v _
    refine Fin.ext ?_
    show 640 * (v.val / 640) + v.val % 640 = v.val
    omega

/-- A sum over the tiles of sums masked by "this column is `c`" is the term at `c`. -/
theorem sum_hit {M : Type*} [AddCommMonoid M] (g : Fin 32000 → M) (c : Fin 32000) :
    ∑ u : Fin 50, ∑ k : Fin 640, (if 640 * u.val + k.val = c.val then g ⟨640 * u.val + k.val, by omega⟩ else 0) = g c := by
  have h := sum_tiles (fun v : Fin 32000 => if v.val = c.val then g v else 0)
  rw [h]
  rw [Finset.sum_eq_single c]
  · simp
  · intro v _ hv
    rw [if_neg (fun h => hv (Fin.ext h))]
  · intro h; exact absurd (Finset.mem_univ c) h

end Cert.LossSpec

end
-- ==== Proof.PreTokens.lean ====
/-
  What the precondition says about the tokens.

  The precondition is the conjunction of three whole-array tests: every logit is finite, every token word is at least 0
  as a signed integer, and every token word is below 32000.  A conjunction of bits that is 1 has every bit 1, and an
  and-reduction over a whole array that is 1 had a 1 at every index; so under the precondition every token is a column
  of the vocabulary.  (The equivalence of the two programs needs only this part: regrouping sums and picking one term of
  a masked sum are laws of addition that hold on all extended reals, so finiteness of the logits is not used.)
-/
import proofs.«423520_j8486855376997_1_alg».proof.Proof.Gen.Pre_finite_inputs
import proofs.«423520_j8486855376997_1_alg».proof.Proof.Spec
import Idealize.ShloMosaic.Lib.ReduceAll
import Idealize.ShloMosaic.Lib.Affine
import Idealize.ShloMosaic.Lib.ValueIdx

noncomputable section

namespace Cert.PreTokens

open Idealize.ShloMosaic Idealize.ShloMosaic.ValueIdx
open Cert.Pre_finite_inputs

instance : Subsingleton S_.Idx := ⟨fun a b => funext fun d => d.elim0⟩

theorem ofBool_one {b : Bool} (h : BitVec.ofBool b = 1#1) : b = true := by
  cases b
  · exact absurd h (by decide)
  · rfl

/-- Under the precondition every token word is a column of the vocabulary. -/
theorem tokens_in_range {F : FTy → Type} [FloatOps F] (x : FVec F S4x1024x32000 .f32) (tok : IVec S4x1024 32)
    (h : Cert.Pre_finite_inputs.fn (F := F) x tok = fun _ => 1#1) (j : S4x1024.Idx) : Cert.LossSpec.InRange (tok j) := by
  have h0 := congrFun h ix0
  dsimp only [Cert.Pre_finite_inputs.fn] at h0
  obtain ⟨h1, hlt⟩ := IntOp.andi_eq_one.mp h0
  obtain ⟨-, hge⟩ := IntOp.andi_eq_one.mp h1
  have a := Host.reduce_andi_all _ _ _ _ _ hge j
  have b := Host.reduce_andi_all _ _ _ _ _ hlt j
  have a' : (0#32 : BitVec 32).sle (tok j) = true := ofBool_one a
  have b' : (tok j).slt (32000#32 : BitVec 32) = true := ofBool_one b
  simp only [BitVec.sle, BitVec.slt, decide_eq_true_eq] at a' b'
  exact ⟨by simpa using a', by simpa using b'⟩

end Cert.PreTokens

end
-- ==== Proof.KernelPieces.lean ====
/-
  What one grid point leaves in each of the three accumulators, as a pure function of what the point loads.

  The body of the kernel loads a 2048 x 640 tile of logits and the 2048 token ids of its rows and adds, into each of three
  2048 x 1 accumulators, a sum over the tile's 640 columns.  At the first tile of a row block (vocabulary tile 0) the
  accumulators are first set to zero, so the accumulator read back is the zero column; at every other tile it is what
  the tile before left.  The lemmas below say exactly that: the contents an output's staging buffer ends with are the
  payload of its last store — the sum term applied to the loaded tile and to the accumulator's previous contents.
  They hold for any float semantics.
-/
import proofs.«423520_j8486855376997_1_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen
open Facts₀ Facts

variable {F : FTy → Type} [FloatOps F]

/-- The accumulators and the tile are read and written whole: the offset of every access is the origin. -/
theorem origin : (![0, 0] : Fin 2 → Nat) = fun _ => 0 := by
  funext a; fin_cases a <;> rfl

/-- After a later tile of a row block, output 2 holds the running row sums of lσ(-x): the tile's term added to what the tile before left. -/
theorem later_2 (c : Dev nD) (i : grid0.Coords) (arg2 : Memref sig .tc .vmem S2048x640 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i)
    (x0 : Vec F S2048x640 .f32) (x1 : Vec F S2048x1 .i32) (xo2 : Vec F S2048x1 .f32) (xo3 : Vec F S2048x1 .f32) (xo4 : Vec F S2048x1 .f32) :
    out0_B_2 c i arg2 harg2 arg3 harg3 arg4 harg4 arg5 harg5 arg6 harg6 hc0 x0 x1 xo2 xo3 xo4 = k0_pay2 (k0_pay12 x0) (k0_pay14 x0) (k0_pay15 x0) (k0_pay16 x0) xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero (S := S2048x1) origin]
  simp only [View.readAt_eq_ld, harg2.read_unread, harg3.read_unread, harg4.read_unread, harg5.read_unread, harg6.read_unread,
    View.ld_unit_zero (S := S2048x640) origin, View.ld_unit_zero (S := S2048x1) origin]

/-- After the first tile of a row block, output 2 holds the tile's term added to the zero column it was just set to. -/
theorem first_2 (c : Dev nD) (i : grid0.Coords) (arg2 : Memref sig .tc .vmem S2048x640 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i)
    (x0 : Vec F S2048x640 .f32) (x1 : Vec F S2048x1 .i32) :
    out0_A_2 c i arg2 harg2 arg3 harg3 arg4 harg4 arg5 harg5 arg6 harg6 hc0 x0 x1 = k0_pay2 (k0_pay12 x0) (k0_pay14 x0) (k0_pay15 x0) (k0_pay16 x0) (k0_pay5 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S2048x1) origin, View.readCov_unit_zero (S := S2048x1) _ origin]
  simp only [View.readAt_eq_ld, harg2.read_unread, harg3.read_unread,
    View.ld_unit_zero (S := S2048x640) origin, View.ld_unit_zero (S := S2048x1) origin]

/-- After a later tile of a row block, output 3 holds the running masked sums of lσ(x): the tile's term added to what the tile before left. -/
theorem later_3 (c : Dev nD) (i : grid0.Coords) (arg2 : Memref sig .tc .vmem S2048x640 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i)
    (x0 : Vec F S2048x640 .f32) (x1 : Vec F S2048x1 .i32) (xo2 : Vec F S2048x1 .f32) (xo3 : Vec F S2048x1 .f32) (xo4 : Vec F S2048x1 .f32) :
    out0_B_3 c i arg2 harg2 arg3 harg3 arg4 harg4 arg5 harg5 arg6 harg6 hc0 x0 x1 xo2 xo3 xo4 = k0_pay3 (k0_pay9 i x1) (k0_pay10 x0) xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero (S := S2048x1) origin]
  simp only [View.readAt_eq_ld, harg2.read_unread, harg3.read_unread, harg4.read_unread, harg5.read_unread, harg6.read_unread,
    View.ld_unit_zero (S := S2048x640) origin, View.ld_unit_zero (S := S2048x1) origin]

/-- After the first tile of a row block, output 3 holds the tile's term added to the zero column it was just set to. -/
theorem first_3 (c : Dev nD) (i : grid0.Coords) (arg2 : Memref sig .tc .vmem S2048x640 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i)
    (x0 : Vec F S2048x640 .f32) (x1 : Vec F S2048x1 .i32) :
    out0_A_3 c i arg2 harg2 arg3 harg3 arg4 harg4 arg5 harg5 arg6 harg6 hc0 x0 x1 = k0_pay3 (k0_pay9 i x1) (k0_pay10 x0) (k0_pay6 (F := F)) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S2048x1) origin, View.readCov_unit_zero (S := S2048x1) _ origin]
  simp only [View.readAt_eq_ld, harg2.read_unread, harg3.read_unread,
    View.ld_unit_zero (S := S2048x640) origin, View.ld_unit_zero (S := S2048x1) origin]

/-- After a later tile of a row block, output 4 holds the running masked sums of lσ(-x): the tile's term added to what the tile before left. -/
theorem later_4 (c : Dev nD) (i : grid0.Coords) (arg2 : Memref sig .tc .vmem S2048x640 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : ¬cond0_0 i)
    (x0 : Vec F S2048x640 .f32) (x1 : Vec F S2048x1 .i32) (xo2 : Vec F S2048x1 .f32) (xo3 : Vec F S2048x1 .f32) (xo4 : Vec F S2048x1 .f32) :
    out0_B_4 c i arg2 harg2 arg3 harg3 arg4 harg4 arg5 harg5 arg6 harg6 hc0 x0 x1 xo2 xo3 xo4 = k0_pay4 (k0_pay9 i x1) (k0_pay12 x0) (k0_pay14 x0) (k0_pay15 x0) (k0_pay16 x0) xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero (S := S2048x1) origin]
  simp only [View.readAt_eq_ld, harg2.read_unread, harg3.read_unread, harg4.read_unread, harg5.read_unread, harg6.read_unread,
    View.ld_unit_zero (S := S2048x640) origin, View.ld_unit_zero (S := S2048x1) origin]

/-- After the first tile of a row block, output 4 holds the tile's term added to the zero column it was just set to. -/
theorem first_4 (c : Dev nD) (i : grid0.Coords) (arg2 : Memref sig .tc .vmem S2048x640 .f32) (harg2 : arg2.IsWhole) (arg3 : Memref sig .tc .vmem S2048x1 .i32) (harg3 : arg3.IsWhole) (arg4 : Memref sig .tc .vmem S2048x1 .f32) (harg4 : arg4.IsWhole) (arg5 : Memref sig .tc .vmem S2048x1 .f32) (harg5 : arg5.IsWhole) (arg6 : Memref sig .tc .vmem S2048x1 .f32) (harg6 : arg6.IsWhole) (hc0 : cond0_0 i)
    (x0 : Vec F S2048x640 .f32) (x1 : Vec F S2048x1 .i32) :
    out0_A_4 c i arg2 harg2 arg3 harg3 arg4 harg4 arg5 harg5 arg6 harg6 hc0 x0 x1 = k0_pay4 (k0_pay9 i x1) (k0_pay12 x0) (k0_pay14 x0) (k0_pay15 x0) (k0_pay16 x0) (k0_pay7 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S2048x1) origin, View.readCov_unit_zero (S := S2048x1) _ origin]
  simp only [View.readAt_eq_ld, harg2.read_unread, harg3.read_unread,
    View.ld_unit_zero (S := S2048x640) origin, View.ld_unit_zero (S := S2048x1) origin]

end Cert.KernelIdeal.Pieces

end
-- ==== Proof.KernelTerms.lean ====
/-
  The three per-tile terms of the kernel read at a row, on the extended reals.

  For a loaded 2048 x 640 tile x0, the token column x1 and an accumulator's previous contents xo, at row p:
    * the first accumulator's new value is xo[p] + Σ_k lσ(-x0[p, k]);
    * the second's is xo[p] + Σ_k (lσ(x0[p, k]) if column k of this tile is the row's token, else 0);
    * the third's is the same with lσ(-x0[p, k]).
  The element-wise chains are the stable log-sigmoid written with subtractions from zero; on the extended reals
  0 - y = -y, y - 0 = y, and the test "y ≠ y" never holds, so each chain is the specification's lσ.  A lane sum over
  the 640 columns is a finite sum over the column coordinate.
-/
import proofs.«423520_j8486855376997_1_alg».proof.Proof.Gen.KernelIdeal.Skeleton
import proofs.«423520_j8486855376997_1_alg».proof.Proof.Spec
import Idealize.ShloMosaic.Lib.Pipeline.Value
import Idealize.ShloMosaic.Lib.ValueIdx
import Idealize.ShloMosaic.PureOps.Ideal.Laws

noncomputable section

namespace Cert.KernelIdeal.Terms

open Idealize.ShloMosaic Idealize.ShloMosaic.ValueIdx Idealize.ShloMosaic.View
open Cert.KernelIdeal Cert.KernelIdeal.Gen
open Facts₀ Facts

/-- No extended real differs from itself. -/
theorem cmp_one_self (a : EReal) : Ideal.cmp .one a a = 0#1 := by
  simp [Ideal.cmp]

/-- The kernel's chain for log(1 - σ(x)) at one element of the tile. -/
theorem logSigNeg_at (x0 : Vec Ideal S2048x640 .f32) (j : S2048x640.Idx) :
    k0_pay1 (k0_pay12 x0) (k0_pay14 x0) (k0_pay15 x0) (k0_pay16 x0) j = Cert.LossSpec.logSigNeg (x0 j) := by
  simp only [k0_pay1, k0_pay12, k0_pay14, k0_pay15, k0_pay16, k0_pay13, k0_pay11, k0_pay8, shapeCast_self,
    subf, addf, maximumf, absf, exp, log1p, select, cmpf, broadcast, Scalar.select,
    Ideal.ofBits_def, Ideal.ofBits_zero_f32, Ideal.subf_def, Ideal.addf_def, Ideal.maximumf_def, Ideal.absf_def,
    Ideal.exp_def, Ideal.log1p_def, Ideal.cmpf_def, cmp_one_self,
    zero_sub, sub_zero, add_zero, neg_neg,
    Cert.LossSpec.logSigNeg, Cert.LossSpec.logSig, Cert.LossSpec.softplus]
  rfl

/-- The kernel's chain for log σ(x) at one element of the tile. -/
theorem logSig_at (x0 : Vec Ideal S2048x640 .f32) (j : S2048x640.Idx) :
    k0_pay10 x0 j = Cert.LossSpec.logSig (x0 j) := by
  simp only [k0_pay10, k0_pay8, shapeCast_self,
    subf, addf, maximumf, absf, exp, log1p, select, cmpf, broadcast, Scalar.select,
    Ideal.ofBits_def, Ideal.ofBits_zero_f32, Ideal.subf_def, Ideal.addf_def, Ideal.maximumf_def, Ideal.absf_def,
    Ideal.exp_def, Ideal.log1p_def, Ideal.cmpf_def, cmp_one_self,
    zero_sub, sub_zero, add_zero, neg_neg,
    Cert.LossSpec.logSig, Cert.LossSpec.softplus]
  rfl

/-! ## The lane sums -/

/-- A row of the tile: the reduced index with the column coordinate put back. -/
theorem lift_row (p : Fin 2048) (k : Fin 640) :
    (Cert.KernelIdeal.Gen.reduces_S2048x640_S2048 : S2048x640.Reduces [1] S2048).lift (ix1 p) k = ix2 (n0 := 2048) (n1 := 640) p k := by
  funext a
  match a with
  | ⟨0, _⟩ => rfl
  | ⟨1, _⟩ => rfl

/-- A column vector of 2048 sums laid out as 2048 x 1, read at row p. -/
theorem column_at (v : FVec Ideal S2048 .f32) (p : Fin 2048) :
    shapeCast S2048x1 v Cert.KernelIdeal.Gen.shapeCasts_S2048_S2048x1 (ix2 (n0 := 2048) (n1 := 1) p 0) = v (ix1 p) :=
  shapeCast_apply _ _ _ (ix1 p) (by
    rw [Shape.rowMajor_val_one, Shape.rowMajor_val_two]
    show p.val = p.val * 1 + 0
    omega)

/-- A lane sum over the tile's 640 columns, read at row p: the finite sum over the column coordinate. -/
theorem laneSum_at (src : FVec Ideal S2048x640 .f32) (hφ : FKind.Formats .f32) (hacc : (0x00000000#32 : BitVec 32) = 0x00000000#32)
    (p : Fin 2048) :
    multiReduction .add [1] S2048 src 0x00000000#32 Cert.KernelIdeal.Gen.reduces_S2048x640_S2048 hφ hacc (ix1 p)
      = ∑ k : Fin 640, src (ix2 (n0 := 2048) (n1 := 640) p k) :=
  (Ideal.multiReduction_add_single src 0x00000000#32 Cert.KernelIdeal.Gen.reduces_S2048x640_S2048 hφ hacc (ix1 p)).trans
    (Finset.sum_congr rfl fun k _ => congrArg src (lift_row p k))

/-- The first accumulator after a tile, at row p: what it held plus the row's sum of lσ(-x) over the tile's columns. -/
theorem rowSum_at (x0 : Vec Ideal S2048x640 .f32) (xo : Vec Ideal S2048x1 .f32) (p : Fin 2048) :
    k0_pay2 (k0_pay12 x0) (k0_pay14 x0) (k0_pay15 x0) (k0_pay16 x0) xo (ix2 (n0 := 2048) (n1 := 1) p 0)
      = xo (ix2 (n0 := 2048) (n1 := 1) p 0) + ∑ k : Fin 640, Cert.LossSpec.logSigNeg (x0 (ix2 (n0 := 2048) (n1 := 640) p k)) := by
  unfold k0_pay2
  dsimp only
  rw [addf_apply, shapeCast_self, column_at]
  refine congrArg (xo (ix2 (n0 := 2048) (n1 := 1) p 0) + ·) ((laneSum_at _ _ _ p).trans ?_)
  refine Finset.sum_congr rfl fun k _ => ?_
  rw [logSigNeg_at]

/-! ## The column mask -/

/-- The mask bit of column k of vocabulary tile `i 1` against a token word: the word equality of 640 · tile + k with the token. -/
def colBit (i : grid0.Coords) (k : Fin 640) (w : BitVec 32) : BitVec 1 :=
  IntOp.cmpi .eq (IntOp.addi (Scalar.muli (BitVec.ofNat 32 (i 1).val) 640#32) (BitVec.ofNat 32 (0 * 640 + k.val))) w

/-- The kernel's mask at row p, column k: it compares the column's word with the row's token. -/
theorem mask_at (i : grid0.Coords) (x1 : Vec Ideal S2048x1 .i32) (p : Fin 2048) (k : Fin 640) :
    k0_pay9 i x1 (ix2 (n0 := 2048) (n1 := 640) p k) = colBit i k (x1 (ix2 (n0 := 2048) (n1 := 1) p 0)) := by
  unfold k0_pay9 colBit
  dsimp only
  show IntOp.cmpi .eq (IntOp.addi _ _) (broadcastTo S2048x640 (shapeCast S2048x1 x1 _) _ (ix2 (n0 := 2048) (n1 := 640) p k)) = _
  rw [shapeCast_self, broadcastTo_apply _ _ _ (ix2 (n0 := 2048) (n1 := 1) p 0) (by
    intro a
    match a with
    | ⟨0, _⟩ => rfl
    | ⟨1, _⟩ => rfl)]
  rfl

/-- The second accumulator after a tile, at row p: what it held plus lσ(x) at the tile's columns that are the row's token. -/
theorem hitSum_at (i : grid0.Coords) (x0 : Vec Ideal S2048x640 .f32) (x1 : Vec Ideal S2048x1 .i32) (xo : Vec Ideal S2048x1 .f32) (p : Fin 2048) :
    k0_pay3 (k0_pay9 i x1) (k0_pay10 x0) xo (ix2 (n0 := 2048) (n1 := 1) p 0)
      = xo (ix2 (n0 := 2048) (n1 := 1) p 0)
        + ∑ k : Fin 640, Scalar.select (colBit i k (x1 (ix2 (n0 := 2048) (n1 := 1) p 0))) (Cert.LossSpec.logSig (x0 (ix2 (n0 := 2048) (n1 := 640) p k))) 0 := by
  unfold k0_pay3
  dsimp only
  rw [addf_apply, shapeCast_self, column_at]
  refine congrArg (xo (ix2 (n0 := 2048) (n1 := 1) p 0) + ·) ((laneSum_at _ _ _ p).trans ?_)
  refine Finset.sum_congr rfl fun k _ => ?_
  rw [select_apply, mask_at, logSig_at]
  simp only [broadcast, Ideal.ofBits_def, Ideal.ofBits_zero_f32]

/-- The third accumulator after a tile, at row p: the same with lσ(-x). -/
theorem hitSumNeg_at (i : grid0.Coords) (x0 : Vec Ideal S2048x640 .f32) (x1 : Vec Ideal S2048x1 .i32) (xo : Vec Ideal S2048x1 .f32) (p : Fin 2048) :
    k0_pay4 (k0_pay9 i x1) (k0_pay12 x0) (k0_pay14 x0) (k0_pay15 x0) (k0_pay16 x0) xo (ix2 (n0 := 2048) (n1 := 1) p 0)
      = xo (ix2 (n0 := 2048) (n1 := 1) p 0)
        + ∑ k : Fin 640, Scalar.select (colBit i k (x1 (ix2 (n0 := 2048) (n1 := 1) p 0))) (Cert.LossSpec.logSigNeg (x0 (ix2 (n0 := 2048) (n1 := 640) p k))) 0 := by
  unfold k0_pay4
  dsimp only
  rw [addf_apply, shapeCast_self, column_at]
  refine congrArg (xo (ix2 (n0 := 2048) (n1 := 1) p 0) + ·) ((laneSum_at _ _ _ p).trans ?_)
  refine Finset.sum_congr rfl fun k _ => ?_
  rw [select_apply, mask_at, logSigNeg_at]
  simp only [broadcast, Ideal.ofBits_def, Ideal.ofBits_zero_f32]

/-- The zero column the accumulators are set to at the first tile of a row block. -/
theorem zero5_at (j : S2048x1.Idx) : k0_pay5 (F := Ideal) j = 0 := by
  simp only [k0_pay5, broadcast, Ideal.ofBits_def, Ideal.ofBits_zero_f32]
theorem zero6_at (j : S2048x1.Idx) : k0_pay6 (F := Ideal) j = 0 := by
  simp only [k0_pay6, broadcast, Ideal.ofBits_def, Ideal.ofBits_zero_f32]
theorem zero7_at (j : S2048x1.Idx) : k0_pay7 (F := Ideal) j = 0 := by
  simp only [k0_pay7, broadcast, Ideal.ofBits_def, Ideal.ofBits_zero_f32]

end Cert.KernelIdeal.Terms

end
-- ==== Proof.Algebra.lean ====
/-
  The accumulation over the grid, as arithmetic on sequences of extended reals (no program).

  The kernel visits its 100 grid points in order; point n works on row block n / 50 and vocabulary tile n % 50.  An
  accumulator is reset at the points that are multiples of 50 and otherwise adds the point's term to what the point
  before left.  `runningSum` is that recursion; `runningSum_closed` says that after point 50·q + u it holds the sum of
  the terms of points 50·q … 50·q + u.  The mask of a tile compares, as 32-bit words, the column number 640·u + k with
  the token; for a tile u < 50, a column k < 640 and a token that is a column of the vocabulary the word equality is
  the equality of the numbers (`colBit_eq`).  With these, the three accumulators at the last tile of a row block are
  the row's full sum (`tiles_sum`) and the term at the row's token (`tiles_hit`).
-/
import proofs.«423520_j8486855376997_1_alg».proof.Proof.Spec

noncomputable section

namespace Cert.LossSpec

open Idealize.ShloMosaic

/-! ## A running sum with a reset every 50 points -/

/-- The accumulator after point n: reset (to 0) at the multiples of 50, then the point's term added. -/
def runningSum (g : ℕ → EReal) : ℕ → EReal
  | 0 => 0 + g 0
  | n + 1 => if (n + 1) % 50 = 0 then 0 + g (n + 1) else runningSum g n + g (n + 1)

theorem runningSum_zero (g : ℕ → EReal) : runningSum g 0 = 0 + g 0 := rfl

theorem runningSum_reset (g : ℕ → EReal) (n : ℕ) (h : (n + 1) % 50 = 0) : runningSum g (n + 1) = 0 + g (n + 1) := by
  rw [runningSum, if_pos h]

theorem runningSum_step (g : ℕ → EReal) (n : ℕ) (h : ¬(n + 1) % 50 = 0) :
    runningSum g (n + 1) = runningSum g n + g (n + 1) := by
  rw [runningSum, if_neg h]

/-- After point 50·q + u (u < 50) the accumulator holds the terms of the points 50·q, …, 50·q + u. -/
theorem runningSum_closed (g : ℕ → EReal) (q : ℕ) : ∀ u : ℕ, u < 50 →
    runningSum g (50 * q + u) = ∑ i ∈ Finset.range (u + 1), g (50 * q + i)
  | 0, _ => by
    rw [Finset.sum_range_one, Nat.add_zero]
    cases q with
    | zero => rw [runningSum_zero, zero_add]
    | succ q =>
      rw [show 50 * (q + 1) = (50 * q + 49) + 1 from by omega, runningSum_reset g _ (by omega), zero_add]
  | u + 1, hu => by
    rw [show 50 * q + (u + 1) = (50 * q + u) + 1 from by omega, runningSum_step g _ (by omega),
      runningSum_closed g q u (by omega), Finset.sum_range_succ (fun i => g (50 * q + i)) (u + 1)]
    rfl

/-! ## The mask bit -/

/-- The mask bit of column k of vocabulary tile u against a token word, as the kernel computes it: the equality of the
    words 640·u + k and the token. -/
def colBitN (u : ℕ) (k : Fin 640) (w : BitVec 32) : BitVec 1 :=
  IntOp.cmpi .eq (IntOp.addi (Scalar.muli (BitVec.ofNat 32 u) 640#32) (BitVec.ofNat 32 (0 * 640 + k.val))) w

/-- For a tile u < 50 and a token that is a column, the bit says whether 640·u + k IS the token. -/
theorem colBit_eq (u : ℕ) (hu : u < 50) (k : Fin 640) (w : BitVec 32) (hw : InRange w) :
    colBitN u k w = if 640 * u + k.val = (tokIdx w).val then 1#1 else 0#1 := by
  have hk := k.isLt
  have hwn := toNat_lt hw
  rw [tokIdx_val hw]
  have hword : IntOp.addi (Scalar.muli (BitVec.ofNat 32 u) 640#32) (BitVec.ofNat 32 (0 * 640 + k.val)) = BitVec.ofNat 32 (640 * u + k.val) := by
    apply BitVec.eq_of_toNat_eq
    simp only [IntOp.addi, Scalar.muli, IntOp.muli, BitVec.toNat_add, BitVec.toNat_mul, BitVec.toNat_ofNat]
    omega
  unfold colBitN
  rw [hword]
  unfold IntOp.cmpi
  by_cases h : 640 * u + k.val = w.toNat
  · rw [if_pos h]
    have : BitVec.ofNat 32 (640 * u + k.val) = w := by
      apply BitVec.eq_of_toNat_eq
      rw [BitVec.toNat_ofNat, h]
      exact Nat.mod_eq_of_lt w.isLt
    simp [this]
  · rw [if_neg h]
    have : BitVec.ofNat 32 (640 * u + k.val) ≠ w := by
      intro e
      apply h
      have := congrArg BitVec.toNat e
      rw [BitVec.toNat_ofNat, Nat.mod_eq_of_lt (by omega)] at this
      exact this
    rw [show (BitVec.ofNat 32 (640 * u + k.val) == w) = false from beq_eq_false_iff_ne.mpr this]
    rfl

/-! ## The tiles of a row, summed -/

/-- The 50 tiles' row sums add up to the row's sum over the whole vocabulary. -/
theorem tiles_sum (f : ℕ → EReal) :
    ∑ i ∈ Finset.range 50, ∑ k : Fin 640, f (640 * i + k.val) = ∑ v : Fin 32000, f v.val := by
  rw [Finset.sum_range (fun i => ∑ k : Fin 640, f (640 * i + k.val))]
  exact sum_tiles (fun v : Fin 32000 => f v.val)

/-- The 50 tiles' masked sums add up to the term at the row's token. -/
theorem tiles_hit (f : ℕ → EReal) (w : BitVec 32) (hw : InRange w) :
    ∑ i ∈ Finset.range 50, ∑ k : Fin 640, Scalar.select (colBitN i k w) (f (640 * i + k.val)) 0 = f (tokIdx w).val := by
  rw [Finset.sum_range (fun i => ∑ k : Fin 640, Scalar.select (colBitN i k w) (f (640 * i + k.val)) 0)]
  have h := sum_hit (fun v : Fin 32000 => f v.val) (tokIdx w)
  rw [← h]
  refine Finset.sum_congr rfl fun u _ => Finset.sum_congr rfl fun k _ => ?_
  rw [colBit_eq u.val u.isLt k w hw]
  by_cases e : 640 * u.val + k.val = (tokIdx w).val
  · rw [if_pos e, if_pos e]; rfl
  · rw [if_neg e, if_neg e]; rfl

end Cert.LossSpec

end
-- ==== Proof.KernelAccum.lean ====
/-
  What the kernel's three result arrays hold after the whole grid.

  The grid has 100 points; point n works on row block n / 50 (2048 rows) and vocabulary tile n % 50 (640 columns), and
  the three 2048 x 1 output blocks of a row block stay in place over its 50 tiles and are written back after the last.
  By induction on the point, each accumulator after point n is the running sum (reset at the multiples of 50) of the
  point's terms; after the last tile of a row block that is the sum over all 50 tiles, which is the row's sum over the
  whole vocabulary for the first accumulator and the term at the row's token for the two masked ones — the latter for a
  token that is a column of the vocabulary.  The two write-backs (after points 49 and 99) cover the 4096 rows, so each
  result array is one function of the arrays the region finds.
-/
import proofs.«423520_j8486855376997_1_alg».proof.Proof.Gen.KernelIdeal.Frame
import proofs.«423520_j8486855376997_1_alg».proof.Proof.KernelPieces
import proofs.«423520_j8486855376997_1_alg».proof.Proof.KernelTerms
import proofs.«423520_j8486855376997_1_alg».proof.Proof.Algebra
import Idealize.ShloMosaic.Lib.Pipeline.Value

set_option maxRecDepth 16384

noncomputable section

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen
open Cert.LossSpec (logSig logSigNeg runningSum colBitN tokIdx InRange)

variable (m : (ℓ : Loc nD τ sig) → Buf (Elt Ideal) ℓ)

/-! ## The arrays the region finds, read at natural-number coordinates -/

/-- The 4096 x 32000 logits at row r, column v (0 outside the array). -/
def Xn (c : Dev nD) (r v : ℕ) : EReal :=
  if h : r < 4096 ∧ v < 32000 then (V m c main_v0 : Vec Ideal S4096x32000 .f32) (ix2 (n0 := 4096) (n1 := 32000) ⟨r, h.1⟩ ⟨v, h.2⟩) else 0

/-- The token word of row r (the zero word outside the array). -/
def Tn (c : Dev nD) (r : ℕ) : BitVec 32 :=
  if h : r < 4096 then (V m c main_v1 : Vec Ideal S4096x1 .i32) (ix2 (n0 := 4096) (n1 := 1) ⟨r, h⟩ 0) else 0#32

/-- The printed index maps and the second grid coordinate, decided over the grid: the row block of point t is t / 50, its
    vocabulary tile t % 50. -/
theorem idx_facts : ∀ t : Fin cfg0.N,
    win0_0.index t (0 : Fin 2) = t.val / 50 ∧ win0_0.index t (1 : Fin 2) = t.val % 50
    ∧ win0_1.index t (0 : Fin 2) = t.val / 50 ∧ win0_1.index t (1 : Fin 2) = 0
    ∧ win0_2.index t (0 : Fin 2) = t.val / 50 ∧ win0_2.index t (1 : Fin 2) = 0
    ∧ win0_3.index t (0 : Fin 2) = t.val / 50 ∧ win0_3.index t (1 : Fin 2) = 0
    ∧ win0_4.index t (0 : Fin 2) = t.val / 50 ∧ win0_4.index t (1 : Fin 2) = 0
    ∧ (grid0.coords t (1 : Fin 2)).val = t.val % 50 :=
  (by decide +kernel : ∀ t : Fin grid0.N, _)

theorem lt100 (t : Fin cfg0.N) : t.val < 100 := lt_of_lt_of_eq t.isLt (show cfg0.N = 100 from N_0)

/-- The logits tile of point t at (p, k) is the array at row 2048·(t / 50) + p, column 640·(t % 50) + k. -/
theorem xblk_at (c : Dev nD) (t : Fin cfg0.N) (p : Fin 2048) (k : Fin 640) :
    (iblk m c 0 t : Vec Ideal S2048x640 .f32) (ix2 (n0 := 2048) (n1 := 640) p k)
      = Xn m c (2048 * (t.val / 50) + p.val) (640 * (t.val % 50) + k.val) := by
  have hN := lt100 t
  obtain ⟨e0, e1, -⟩ := idx_facts t
  have hp := p.isLt
  have hk := k.isLt
  unfold Xn
  rw [dif_pos ⟨by omega, by omega⟩]
  unfold iblk
  rw [View.read_apply]
  show V m c main_v0 _ = V m c main_v0 _
  congr 1
  funext a
  apply Fin.ext
  match a with
  | ⟨0, _⟩ => show win0_0.index t (0 : Fin 2) * 2048 + 1 * p.val = 2048 * (t.val / 50) + p.val; rw [e0]; omega
  | ⟨1, _⟩ => show win0_0.index t (1 : Fin 2) * 640 + 1 * k.val = 640 * (t.val % 50) + k.val; rw [e1]; omega

/-- The token block of point t at row p is the token of row 2048·(t / 50) + p. -/
theorem tblk_at (c : Dev nD) (t : Fin cfg0.N) (p : Fin 2048) :
    (iblk m c 1 t : Vec Ideal S2048x1 .i32) (ix2 (n0 := 2048) (n1 := 1) p 0) = Tn m c (2048 * (t.val / 50) + p.val) := by
  have hN := lt100 t
  obtain ⟨-, -, e0, e1, -⟩ := idx_facts t
  have hp := p.isLt
  unfold Tn
  rw [dif_pos (by omega)]
  unfold iblk
  rw [View.read_apply]
  show V m c main_v1 _ = V m c main_v1 _
  congr 1
  funext a
  apply Fin.ext
  match a with
  | ⟨0, _⟩ => show win0_1.index t (0 : Fin 2) * 2048 + 1 * p.val = 2048 * (t.val / 50) + p.val; rw [e0]; omega
  | ⟨1, _⟩ => show win0_1.index t (1 : Fin 2) * 1 + 1 * 0 = 0; rw [e1]

/-! ## The terms a point adds, at row p of its block -/

/-- The row's sum of lσ(-x) over the columns of point n's tile. -/
def rowT (c : Dev nD) (p : Fin 2048) (n : ℕ) : EReal :=
  ∑ k : Fin 640, logSigNeg (Xn m c (2048 * (n / 50) + p.val) (640 * (n % 50) + k.val))

/-- f of the logit at the row's token, if the token is a column of point n's tile (0 otherwise). -/
def hitT (f : EReal → EReal) (c : Dev nD) (p : Fin 2048) (n : ℕ) : EReal :=
  ∑ k : Fin 640, Scalar.select (colBitN (n % 50) k (Tn m c (2048 * (n / 50) + p.val)))
    (f (Xn m c (2048 * (n / 50) + p.val) (640 * (n % 50) + k.val))) 0

theorem row_point (c : Dev nD) (t : Fin cfg0.N) (xo : Vec Ideal S2048x1 .f32) (p : Fin 2048) :
    k0_pay2 (k0_pay12 (iblk m c 0 t)) (k0_pay14 (iblk m c 0 t)) (k0_pay15 (iblk m c 0 t)) (k0_pay16 (iblk m c 0 t)) xo (ix2 (n0 := 2048) (n1 := 1) p 0)
      = xo (ix2 (n0 := 2048) (n1 := 1) p 0) + rowT m c p t.val :=
  (Terms.rowSum_at (iblk m c 0 t) xo p).trans
    (congrArg (xo (ix2 (n0 := 2048) (n1 := 1) p 0) + ·) (Finset.sum_congr rfl fun k _ => congrArg logSigNeg (xblk_at m c t p k)))

theorem colBit_point (t : Fin cfg0.N) (k : Fin 640) (w : BitVec 32) : Terms.colBit (grid0.coords t) k w = colBitN (t.val % 50) k w := by
  obtain ⟨-, -, -, -, -, -, -, -, -, -, ec⟩ := idx_facts t
  unfold Terms.colBit colBitN
  rw [ec]

theorem hit_point (c : Dev nD) (t : Fin cfg0.N) (xo : Vec Ideal S2048x1 .f32) (p : Fin 2048) :
    k0_pay3 (k0_pay9 (grid0.coords t) (iblk m c 1 t)) (k0_pay10 (iblk m c 0 t)) xo (ix2 (n0 := 2048) (n1 := 1) p 0)
      = xo (ix2 (n0 := 2048) (n1 := 1) p 0) + hitT m logSig c p t.val := by
  refine (Terms.hitSum_at (grid0.coords t) (iblk m c 0 t) (iblk m c 1 t) xo p).trans
    (congrArg (xo (ix2 (n0 := 2048) (n1 := 1) p 0) + ·) (Finset.sum_congr rfl fun k _ => ?_))
  rw [tblk_at m c t p, xblk_at m c t p k, colBit_point]

theorem hitNeg_point (c : Dev nD) (t : Fin cfg0.N) (xo : Vec Ideal S2048x1 .f32) (p : Fin 2048) :
    k0_pay4 (k0_pay9 (grid0.coords t) (iblk m c 1 t)) (k0_pay12 (iblk m c 0 t)) (k0_pay14 (iblk m c 0 t)) (k0_pay15 (iblk m c 0 t)) (k0_pay16 (iblk m c 0 t)) xo (ix2 (n0 := 2048) (n1 := 1) p 0)
      = xo (ix2 (n0 := 2048) (n1 := 1) p 0) + hitT m logSigNeg c p t.val := by
  refine (Terms.hitSumNeg_at (grid0.coords t) (iblk m c 0 t) (iblk m c 1 t) xo p).trans
    (congrArg (xo (ix2 (n0 := 2048) (n1 := 1) p 0) + ·) (Finset.sum_congr rfl fun k _ => ?_))
  rw [tblk_at m c t p, xblk_at m c t p k, colBit_point]

/-! ## The accumulators after each point -/

/-- Output 2's staging buffer after point n, at row p: the running sum of the points' terms (the row sums of lσ(-x)). -/
theorem acc2 (c : Dev nD) (p : Fin 2048) : ∀ (n : ℕ) (h : n < cfg0.N),
    ((outsAt0 m c n h).1 : Vec Ideal S2048x1 .f32) (ix2 (n0 := 2048) (n1 := 1) p 0) = runningSum (rowT m c p) n
  | 0, h => by
    rw [outsAt0_A m c ⟨0, h⟩ rfl]; dsimp only
    refine (congrFun (Pieces.first_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩)) (ix2 (n0 := 2048) (n1 := 1) p 0)).trans ?_
    rw [row_point m c ⟨0, h⟩ _ p, Terms.zero5_at]
    rfl
  | n + 1, h => by
    by_cases h0 : (n + 1) % 50 = 0
    · rw [outsAt0_A m c ⟨n + 1, h⟩ h0]; dsimp only
      refine (congrFun (Pieces.first_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (iblk m c 0 ⟨n + 1, h⟩) (iblk m c 1 ⟨n + 1, h⟩)) (ix2 (n0 := 2048) (n1 := 1) p 0)).trans ?_
      rw [row_point m c ⟨n + 1, h⟩ _ p, Terms.zero5_at]
      rw [Cert.LossSpec.runningSum_reset _ _ h0]
    · rw [outsAt0_B m c ⟨n + 1, h⟩ h0]; dsimp only
      refine (congrFun (Pieces.later_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩) _ _ _) (ix2 (n0 := 2048) (n1 := 1) p 0)).trans ?_
      rw [row_point m c ⟨n + 1, h⟩ _ p, Cert.LossSpec.runningSum_step _ _ h0]
      show ((outsAt0 m c n _).1 : Vec Ideal S2048x1 .f32) (ix2 (n0 := 2048) (n1 := 1) p 0) + _ = _
      rw [acc2 c p n]

/-- Output 3's staging buffer after point n, at row p: the running sum of the points' terms (lσ(x) at the row's token). -/
theorem acc3 (c : Dev nD) (p : Fin 2048) : ∀ (n : ℕ) (h : n < cfg0.N),
    ((outsAt0 m c n h).2.1 : Vec Ideal S2048x1 .f32) (ix2 (n0 := 2048) (n1 := 1) p 0) = runningSum (hitT m logSig c p) n
  | 0, h => by
    rw [outsAt0_A m c ⟨0, h⟩ rfl]; dsimp only
    refine (congrFun (Pieces.first_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩)) (ix2 (n0 := 2048) (n1 := 1) p 0)).trans ?_
    rw [hit_point m c ⟨0, h⟩ _ p, Terms.zero6_at]
    rfl
  | n + 1, h => by
    by_cases h0 : (n + 1) % 50 = 0
    · rw [outsAt0_A m c ⟨n + 1, h⟩ h0]; dsimp only
      refine (congrFun (Pieces.first_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (iblk m c 0 ⟨n + 1, h⟩) (iblk m c 1 ⟨n + 1, h⟩)) (ix2 (n0 := 2048) (n1 := 1) p 0)).trans ?_
      rw [hit_point m c ⟨n + 1, h⟩ _ p, Terms.zero6_at]
      rw [Cert.LossSpec.runningSum_reset _ _ h0]
    · rw [outsAt0_B m c ⟨n + 1, h⟩ h0]; dsimp only
      refine (congrFun (Pieces.later_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩) _ _ _) (ix2 (n0 := 2048) (n1 := 1) p 0)).trans ?_
      rw [hit_point m c ⟨n + 1, h⟩ _ p, Cert.LossSpec.runningSum_step _ _ h0]
      show ((outsAt0 m c n _).2.1 : Vec Ideal S2048x1 .f32) (ix2 (n0 := 2048) (n1 := 1) p 0) + _ = _
      rw [acc3 c p n]

/-- Output 4's staging buffer after point n, at row p: the running sum of the points' terms (lσ(-x) at the row's token). -/
theorem acc4 (c : Dev nD) (p : Fin 2048) : ∀ (n : ℕ) (h : n < cfg0.N),
    ((outsAt0 m c n h).2.2 : Vec Ideal S2048x1 .f32) (ix2 (n0 := 2048) (n1 := 1) p 0) = runningSum (hitT m logSigNeg c p) n
  | 0, h => by
    rw [outsAt0_A m c ⟨0, h⟩ rfl]; dsimp only
    refine (congrFun (Pieces.first_4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩)) (ix2 (n0 := 2048) (n1 := 1) p 0)).trans ?_
    rw [hitNeg_point m c ⟨0, h⟩ _ p, Terms.zero7_at]
    rfl
  | n + 1, h => by
    by_cases h0 : (n + 1) % 50 = 0
    · rw [outsAt0_A m c ⟨n + 1, h⟩ h0]; dsimp only
      refine (congrFun (Pieces.first_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0) (iblk m c 0 ⟨n + 1, h⟩) (iblk m c 1 ⟨n + 1, h⟩)) (ix2 (n0 := 2048) (n1 := 1) p 0)).trans ?_
      rw [hitNeg_point m c ⟨n + 1, h⟩ _ p, Terms.zero7_at]
      rw [Cert.LossSpec.runningSum_reset _ _ h0]
    · rw [outsAt0_B m c ⟨n + 1, h⟩ h0]; dsimp only
      refine (congrFun (Pieces.later_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh)) (iblk m c 0 ⟨n + 1, h⟩) (iblk m c 1 ⟨n + 1, h⟩) _ _ _) (ix2 (n0 := 2048) (n1 := 1) p 0)).trans ?_
      rw [hitNeg_point m c ⟨n + 1, h⟩ _ p, Cert.LossSpec.runningSum_step _ _ h0]
      show ((outsAt0 m c n _).2.2 : Vec Ideal S2048x1 .f32) (ix2 (n0 := 2048) (n1 := 1) p 0) + _ = _
      rw [acc4 c p n]

end Cert.KernelIdeal.Accum

end
-- ==== Proof.KernelArrays.lean ====
/-
  The three result arrays of the kernel's region, each as one function of the arrays the region finds.

  An output's block of row block q is written back once, after point 50·q + 49, when its accumulator holds the sum of
  all 50 tiles' terms: the row's sum over the vocabulary, or — for a token that is a column — the term at the token.
  The two blocks written back tile the 4096 rows, so the array after the region is that function at every row.
-/
import proofs.«423520_j8486855376997_1_alg».proof.Proof.KernelAccum

set_option maxRecDepth 16384

noncomputable section

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen
open Cert.LossSpec (logSig logSigNeg runningSum colBitN tokIdx InRange)

variable (m : (ℓ : Loc nD τ sig) → Buf (Elt Ideal) ℓ)

/-- Every token the region finds is a column of the vocabulary. -/
def TokOk (c : Dev nD) : Prop := ∀ j : S4096x1.Idx, InRange ((V m c main_v1 : Vec Ideal S4096x1 .i32) j)

theorem Tn_ok (c : Dev nD) (h : TokOk m c) (r : ℕ) : InRange (Tn m c r) := by
  unfold Tn
  split
  · exact h _
  · exact ⟨by decide, by decide⟩

/-- The sum of the 50 tiles' row terms of row block q at row p is the row's sum over the vocabulary. -/
theorem rows_total (c : Dev nD) (p : Fin 2048) (q : ℕ) :
    ∑ i ∈ Finset.range 50, rowT m c p (50 * q + i) = ∑ v : Fin 32000, logSigNeg (Xn m c (2048 * q + p.val) v.val) := by
  rw [← Cert.LossSpec.tiles_sum (fun v => logSigNeg (Xn m c (2048 * q + p.val) v))]
  refine Finset.sum_congr rfl fun i hi => ?_
  rw [Finset.mem_range] at hi
  unfold rowT
  rw [show (50 * q + i) / 50 = q from by omega, show (50 * q + i) % 50 = i from by omega]

/-- The sum of the 50 tiles' masked terms of row block q at row p is the term at the row's token. -/
theorem hits_total (f : EReal → EReal) (c : Dev nD) (h : TokOk m c) (p : Fin 2048) (q : ℕ) :
    ∑ i ∈ Finset.range 50, hitT m f c p (50 * q + i)
      = f (Xn m c (2048 * q + p.val) (tokIdx (Tn m c (2048 * q + p.val))).val) := by
  rw [← Cert.LossSpec.tiles_hit (fun v => f (Xn m c (2048 * q + p.val) v)) (Tn m c (2048 * q + p.val)) (Tn_ok m c h _)]
  refine Finset.sum_congr rfl fun i hi => ?_
  rw [Finset.mem_range] at hi
  unfold hitT
  rw [show (50 * q + i) / 50 = q from by omega, show (50 * q + i) % 50 = i from by omega]

/-! ## Result array 0 -/

/-- What result array 0 ends holding: at row r, row r's sum of lσ(-x) over the vocabulary. -/
def G0 (c : Dev nD) : Buf (Elt Ideal) ((c : Thread nD τ).loc main_v2_0) :=
  fun (i : S4096x1.Idx) => ((∑ v : Fin 32000, logSigNeg (Xn m c (i 0).val v.val)) : EReal)

/-- An index of the array is in point t's block iff each coordinate is in the block's range on its axis. -/
theorem mem_blk2 (t : Fin cfg0.N) (i : S4096x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v2_0).slice (win0_2.rect t)).set ↔ _
  rw [View.set_slice_whole, Rect.mem_set_unit]
  exact Iff.rfl

/-- What a write-back of output 2 writes is its block of `G0`. -/
theorem flushed2 (c : Dev nD) (t : Fin cfg0.N) (hf : (cfg0.win 2).flush t = true) :
    (dats m 0 c).flushed 2 t = ((cfg0.win 2).blk t).view.read (Elt Ideal) (G0 m c) := by
  have hN := lt100 t
  have h49 : t.val % 50 = 49 := (flush0_2 t).mp hf
  obtain ⟨-, -, -, -, e0, e1, -⟩ := idx_facts t
  show (cfg0.win 2).cut (grid0.coords t) ((dats m 0 c).after 2 t) = _
  rw [after0_2]
  funext y
  rw [View.read_apply]
  obtain ⟨p, z, rfl⟩ : ∃ (p : Fin 2048) (z : Fin 1), y = ix2 (n0 := 2048) (n1 := 1) p z := ⟨y 0, y 1, eq_ix2 y⟩
  obtain rfl : z = 0 := Subsingleton.elim _ _
  refine (congrArg ((outsAt0 m c t.val t.isLt).1 : Vec Ideal S2048x1 .f32) (funext fun a => Fin.ext rfl :
    (cfg0.win 2).xinj (grid0.coords t) (ix2 (n0 := 2048) (n1 := 1) p 0) = ix2 (n0 := 2048) (n1 := 1) p 0)).trans ?_
  rw [acc2 m c p t.val t.isLt]
  rw [cast_eq]
  obtain ⟨q, hq⟩ : ∃ q, t.val = 50 * q + 49 := ⟨t.val / 50, by omega⟩
  have hr : ((((cfg0.win 2).blk t).view.emb (ix2 (n0 := 2048) (n1 := 1) p 0)) 0).val = 2048 * q + p.val := by
    show win0_2.index t (0 : Fin 2) * 2048 + 1 * p.val = _
    rw [e0]; omega
  unfold G0
  rw [hr, hq, Cert.LossSpec.runningSum_closed _ q 49 (by norm_num)]
  exact rows_total m c p q

/-- The two write-backs of output 2 cover the array's 4096 rows. -/
theorem cover2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = 50 * ((i 0).val / 2048) + 49 :=
    ⟨⟨50 * ((i 0).val / 2048) + 49, by rw [show cfg0.N = 100 from N_0]; omega⟩, rfl⟩
  obtain ⟨-, -, -, -, e0, e1, -⟩ := idx_facts t
  refine ⟨t, (flush0_2 t).mpr (by omega), ?_⟩
  rw [mem_blk2]
  intro a
  match a with
  | ⟨0, _⟩ => show win0_2.index t (0 : Fin 2) * 2048 ≤ (i 0).val ∧ (i 0).val < win0_2.index t (0 : Fin 2) * 2048 + 2048; rw [e0]; omega
  | ⟨1, _⟩ => show win0_2.index t (1 : Fin 2) * 1 ≤ (i 1).val ∧ (i 1).val < win0_2.index t (1 : Fin 2) * 1 + 1; rw [e1]; omega

/-- Result array 0 after the region. -/
theorem final2 (c : Dev nD) : (dats m 0 c).arrAt 2 cfg0.N = G0 m c :=
  (dats m 0 c).arrAt_eq_of_cover 2 (G0 m c) (flushed2 m c) (cover2)

/-! ## Result array 1 -/

/-- What result array 1 ends holding: at row r, lσ(x) at row r's token. -/
def G1 (c : Dev nD) : Buf (Elt Ideal) ((c : Thread nD τ).loc main_v2_1) :=
  fun (i : S4096x1.Idx) => (logSig (Xn m c (i 0).val (tokIdx (Tn m c (i 0).val)).val) : EReal)

/-- An index of the array is in point t's block iff each coordinate is in the block's range on its axis. -/
theorem mem_blk3 (t : Fin cfg0.N) (i : S4096x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v2_1).slice (win0_3.rect t)).set ↔ _
  rw [View.set_slice_whole, Rect.mem_set_unit]
  exact Iff.rfl

/-- What a write-back of output 3 writes is its block of `G1`. -/
theorem flushed3 (c : Dev nD) (hT : TokOk m c) (t : Fin cfg0.N) (hf : (cfg0.win 3).flush t = true) :
    (dats m 0 c).flushed 3 t = ((cfg0.win 3).blk t).view.read (Elt Ideal) (G1 m c) := by
  have hN := lt100 t
  have h49 : t.val % 50 = 49 := (flush0_3 t).mp hf
  obtain ⟨-, -, -, -, -, -, e0, e1, -⟩ := idx_facts t
  show (cfg0.win 3).cut (grid0.coords t) ((dats m 0 c).after 3 t) = _
  rw [after0_3]
  funext y
  rw [View.read_apply]
  obtain ⟨p, z, rfl⟩ : ∃ (p : Fin 2048) (z : Fin 1), y = ix2 (n0 := 2048) (n1 := 1) p z := ⟨y 0, y 1, eq_ix2 y⟩
  obtain rfl : z = 0 := Subsingleton.elim _ _
  refine (congrArg ((outsAt0 m c t.val t.isLt).2.1 : Vec Ideal S2048x1 .f32) (funext fun a => Fin.ext rfl :
    (cfg0.win 3).xinj (grid0.coords t) (ix2 (n0 := 2048) (n1 := 1) p 0) = ix2 (n0 := 2048) (n1 := 1) p 0)).trans ?_
  rw [acc3 m c p t.val t.isLt]
  rw [cast_eq]
  obtain ⟨q, hq⟩ : ∃ q, t.val = 50 * q + 49 := ⟨t.val / 50, by omega⟩
  have hr : ((((cfg0.win 3).blk t).view.emb (ix2 (n0 := 2048) (n1 := 1) p 0)) 0).val = 2048 * q + p.val := by
    show win0_3.index t (0 : Fin 2) * 2048 + 1 * p.val = _
    rw [e0]; omega
  unfold G1
  rw [hr, hq, Cert.LossSpec.runningSum_closed _ q 49 (by norm_num)]
  exact hits_total m logSig c hT p q

/-- The two write-backs of output 3 cover the array's 4096 rows. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, ht⟩ : ∃ t : Fin cfg0.N, t.val = 50 * ((i 0).val / 2048) + 49 :=
    ⟨⟨50 * ((i 0).val / 2048) + 49, by rw [show cfg0.N = 100 from N_0]; omega⟩, rfl⟩
  obtain ⟨-, -, -, -, -, -, e0, e1, -⟩ := idx_facts t
  refine ⟨t, (flush0_3 t).mpr (by omega), ?_⟩
  rw [mem_blk3]
  intro a
  match a with
  | ⟨0, _⟩ => show win0_3.index t (0 : Fin 2) * 2048 ≤ (i 0).val ∧ (i 0).val < win0_3.index t (0 : Fin 2) * 2048 + 2048; rw [e0]; omega
  | ⟨1, _⟩ => show win0_3.index t (1 : Fin 2) * 1 ≤ (i 1).val ∧ (i 1).val < win0_3.index t (1 : Fin 2) * 1 + 1; rw [e1]; omega

/-- Result array 1 after the region. -/
theorem final3 (c : Dev nD) (hT : TokOk m c) : (dats m 0 c).arrAt 3 cfg0.N = G1 m c :=
  (dats m 0 c).arrAt_eq_of_cover 3 (G1 m c) (flushed3 m c hT) (cover3)

/-! ## Result array 2 -/

/-- What result array 2 ends holding: at row r, lσ(-x) at row r's token. -/
def G2 (c : Dev nD) : Buf (Elt Ideal) ((c : Thread nD τ).loc main_v2_2) :=
  fun (i : S4096x1.Idx) => (logSigNeg (Xn m c (i 0).val (tokIdx (Tn m c (i 0).val)).val) : EReal)

/-- An index of the array is in point t's block iff each coordinate is in the block's range on its axis. -/
theorem mem_blk4 (t : Fin cfg0.N) (i : S4096x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v2_2).slice (win0_4.rect t)).set ↔ _
  rw [View.set_slice_whole, Rect.mem_set_unit]
  exact Iff.rfl

/-- What a write-back of output 4 writes is its block of `G2`. -/
theorem flushed4 (c : Dev nD) (hT : TokOk m c) (t : Fin cfg0.N) (hf : (cfg0.win 4).flush t = true) :
    (dats m 0 c).flushed 4 t = ((cfg0.win 4).blk t).view.read (Elt Ideal) (G2 m c) := by
  have hN := lt100 t
  have h49 : t.val % 50 = 49 := (flush0_4 t).mp hf
  obtain ⟨-, -, -, -, -, -, -, -, e0, e1, -⟩ := idx_facts t
  show (cfg0.win 4).cut (grid0.coords t) ((dats m 0 c).after 4 t) = _
  rw [after0_4]
  funext y
  rw [View.read_apply]
  obtain ⟨p, z, rfl⟩ : ∃ (p : Fin 2048) (z : Fin 1), y = ix2 (n0 := 2048) (n1 := 1) p z := ⟨y 0, y 1, eq_ix2 y⟩
  obtain rfl : z = 0 := Subsingleton.elim _ _
  refine (congrArg ((outsAt0 m c t.val t.isLt).2.2 : Vec Ideal S2048x1 .f32) (funext fun a => Fin.ext rfl :
    (cfg0.win 4).xinj (grid0.coords t) (ix2 (n0 := 2048) (n1 := 1) p 0) = ix2 (n0 := 2048) (n1 := 1) p 0)).trans ?_
  rw [acc4 m c p t.val t.isLt]
  rw [cast_eq]
  obtain ⟨q, hq⟩ : ∃ q, t.val = 50 * q + 49 := ⟨t.val / 50, by omega⟩
  have hr : ((((cfg0.win 4).blk t).view.emb (ix2 (n0 := 2048) (n1 := 1) p 0)) 0).val = 2048 * q + p.val := by
    show win0_4.index t (0 : Fin 2) * 2048 + 1 * p.val = _
    rw [e0]; omega
  unfold G2
  rw [hr, hq, Cert.LossSpec.runningSum_closed _ q 49 (by norm_num)]
  exact hits_total m logSigNeg c hT p q

/-- The two write-backs of output 4 cover the array's 4096 rows. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  obtain ⟨t, ht⟩ : ∃ t : Fin cfg0.N, t.val = 50 * ((i 0).val / 2048) + 49 :=
    ⟨⟨50 * ((i 0).val / 2048) + 49, by rw [show cfg0.N = 100 from N_0]; omega⟩, rfl⟩
  obtain ⟨-, -, -, -, -, -, -, -, e0, e1, -⟩ := idx_facts t
  refine ⟨t, (flush0_4 t).mpr (by omega), ?_⟩
  rw [mem_blk4]
  intro a
  match a with
  | ⟨0, _⟩ => show win0_4.index t (0 : Fin 2) * 2048 ≤ (i 0).val ∧ (i 0).val < win0_4.index t (0 : Fin 2) * 2048 + 2048; rw [e0]; omega
  | ⟨1, _⟩ => show win0_4.index t (1 : Fin 2) * 1 ≤ (i 1).val ∧ (i 1).val < win0_4.index t (1 : Fin 2) * 1 + 1; rw [e1]; omega

/-- Result array 2 after the region. -/
theorem final4 (c : Dev nD) (hT : TokOk m c) : (dats m 0 c).arrAt 4 cfg0.N = G2 m c :=
  (dats m 0 c).arrAt_eq_of_cover 4 (G2 m c) (flushed4 m c hT) (cover4)

end Cert.KernelIdeal.Accum

end
-- ==== Proof.KernelTail.lean ====
/-
  The kernel's program after its region: the loss from the three result arrays.

  After the region, the program reshapes the three 4096 x 1 result arrays to 4 x 1024, sums the first and the third over
  the rows of each batch entry, and combines them with the total of the second exactly as the specification's `tail`
  does.  This module reads the last buffer of the program as `tail` of those reshaped arrays; `tail` itself is never
  opened.  It also reads the two arrays the region works on as reshapes of the program's arguments.
-/
import proofs.«423520_j8486855376997_1_alg».proof.Proof.Gen.KernelIdeal.Frame
import proofs.«423520_j8486855376997_1_alg».proof.Proof.Spec
import Idealize.ShloMosaic.Lib.StableHlo.Run

set_option maxRecDepth 16384

noncomputable section

namespace Cert.KernelIdeal.Tail

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ)

/-- The buffers at the region's exit: the region's arrays at what the pipeline leaves, every other buffer as the region
    found it. -/
def exitVal (c : Dev nD) : Valuation τ sig (Elt Ideal) :=
  Pipeline.withArrays spec0 c (V0 m c) fun w => (dats m 0 c).arrAt w cfg0.N

theorem exit_arr (c : Dev nD) (w : Fin cfg0.W) :
    exitVal m c (Proc.devRef .tc (Pipeline.arrRef spec0 w)) = (dats m 0 c).arrAt w cfg0.N := by
  unfold exitVal; exact Pipeline.withArrays_arr spec0 launch0.win.arr_inj c _ _ w

/-- The lines after the region, read from ANY contents `W` of the buffers at the region's exit: the last buffer is the
    specification's tail of the second result array reshaped, the per-batch sums of the first reshaped, and the third
    reshaped. -/
theorem tail_read {F : FTy → Type} [FloatOps F] (W : Valuation τ sig (Elt F)) :
    StableHlo.after (hostOps1 (F := F)) W (Proc.devRef .tc main_v17)
      = Cert.LossSpec.tail (F := F) Cert.KernelIdeal.Gen.reducesTo_S4x1024_S_d0_1 Cert.KernelIdeal.Gen.reducesTo_S4x1024_S4_d1
          Cert.KernelIdeal.Gen.reducesTo_S4_S_d0 Cert.KernelIdeal.Gen.bcast_S_S4 Cert.KernelIdeal.Gen.h_S_
          (shapeCast S4x1024 (W (Proc.devRef .tc main_v2_1)) Cert.KernelIdeal.Gen.shapeCasts_S4096x1_S4x1024)
          (Host.reduceAdd (F := F) (shapeCast S4x1024 (W (Proc.devRef .tc main_v2_0)) Cert.KernelIdeal.Gen.shapeCasts_S4096x1_S4x1024)
            (constant (F := F) S_ .f32 0x00000000#32) Cert.KernelIdeal.Gen.reducesTo_S4x1024_S4_d1 Cert.KernelIdeal.Gen.h_S_)
          (shapeCast S4x1024 (W (Proc.devRef .tc main_v2_2)) Cert.KernelIdeal.Gen.shapeCasts_S4096x1_S4x1024) := by
  suffices h : ∀ R, R = Cert.LossSpec.tail (F := F) Cert.KernelIdeal.Gen.reducesTo_S4x1024_S_d0_1 Cert.KernelIdeal.Gen.reducesTo_S4x1024_S4_d1
          Cert.KernelIdeal.Gen.reducesTo_S4_S_d0 Cert.KernelIdeal.Gen.bcast_S_S4 Cert.KernelIdeal.Gen.h_S_
          (shapeCast S4x1024 (W (Proc.devRef .tc main_v2_1)) Cert.KernelIdeal.Gen.shapeCasts_S4096x1_S4x1024)
          (Host.reduceAdd (F := F) (shapeCast S4x1024 (W (Proc.devRef .tc main_v2_0)) Cert.KernelIdeal.Gen.shapeCasts_S4096x1_S4x1024)
            (constant (F := F) S_ .f32 0x00000000#32) Cert.KernelIdeal.Gen.reducesTo_S4x1024_S4_d1 Cert.KernelIdeal.Gen.h_S_)
          (shapeCast S4x1024 (W (Proc.devRef .tc main_v2_2)) Cert.KernelIdeal.Gen.shapeCasts_S4096x1_S4x1024)
        → StableHlo.after (hostOps1 (F := F)) W (Proc.devRef .tc main_v17) = R from h _ rfl
  intro R hR
  after_results
  rw [hR]
  rfl

/-- The program's last buffer after the lines that follow the region, from the region's three result arrays. -/
theorem loss_of_arrays (c : Dev nD) :
    Pipeline.afterTail₀ cfgs (dats m) 0 (V0 m) [hostOps1] c main_v17
      = Cert.LossSpec.tail (F := Ideal) Cert.KernelIdeal.Gen.reducesTo_S4x1024_S_d0_1 Cert.KernelIdeal.Gen.reducesTo_S4x1024_S4_d1
          Cert.KernelIdeal.Gen.reducesTo_S4_S_d0 Cert.KernelIdeal.Gen.bcast_S_S4 Cert.KernelIdeal.Gen.h_S_
          (shapeCast S4x1024 ((dats m 0 c).arrAt 3 cfg0.N) Cert.KernelIdeal.Gen.shapeCasts_S4096x1_S4x1024)
          (Host.reduceAdd (F := Ideal) (shapeCast S4x1024 ((dats m 0 c).arrAt 2 cfg0.N) Cert.KernelIdeal.Gen.shapeCasts_S4096x1_S4x1024)
            (constant (F := Ideal) S_ .f32 0x00000000#32) Cert.KernelIdeal.Gen.reducesTo_S4x1024_S4_d1 Cert.KernelIdeal.Gen.h_S_)
          (shapeCast S4x1024 ((dats m 0 c).arrAt 4 cfg0.N) Cert.KernelIdeal.Gen.shapeCasts_S4096x1_S4x1024) := by
  have e2 : exitVal m c (Proc.devRef .tc main_v2_0) = (dats m 0 c).arrAt 2 cfg0.N := exit_arr m c 2
  have e3 : exitVal m c (Proc.devRef .tc main_v2_1) = (dats m 0 c).arrAt 3 cfg0.N := exit_arr m c 3
  have e4 : exitVal m c (Proc.devRef .tc main_v2_2) = (dats m 0 c).arrAt 4 cfg0.N := exit_arr m c 4
  unfold Pipeline.afterTail₀
  refine (tail_read (F := Ideal) (exitVal m c)).trans ?_
  rw [e2, e3, e4]

/-- The logits the region finds are the program's first argument laid out as 4096 x 32000. -/
theorem logits_found (c : Dev nD) :
    (V m c main_v0 : Vec Ideal S4096x32000 .f32)
      = shapeCast S4096x32000 (m ((c : Thread nD τ).loc main_arg0)) Cert.KernelIdeal.Gen.shapeCasts_S4x1024x32000_S4096x32000 := by
  show StableHlo.after hostOps0 (fun b => m (c, b)) (Proc.devRef .tc main_v0) = _
  after_results
  rfl

/-- The tokens the region finds are the program's second argument laid out as 4096 x 1. -/
theorem tokens_found (c : Dev nD) :
    (V m c main_v1 : Vec Ideal S4096x1 .i32)
      = shapeCast S4096x1 (m ((c : Thread nD τ).loc main_arg1)) Cert.KernelIdeal.Gen.shapeCasts_S4x1024_S4096x1 := by
  show StableHlo.after hostOps0 (fun b => m (c, b)) (Proc.devRef .tc main_v1) = _
  after_results
  rfl

end Cert.KernelIdeal.Tail

end
-- ==== Proof.KernelValue.lean ====
/-
  The idealized kernel program computes the specification's loss.

  The region's result arrays are functions of the 4096 x 32000 logits and the 4096 tokens the region finds, which are the
  program's arguments laid out row-major: row 1024·b + s of the flat arrays is entry (b, s) of the arguments.  Reading the
  three reshaped result arrays at (b, s), and the per-batch sum of the first at b, gives the specification's picked
  log-sigmoids and per-batch sums; the rest of the program is the shared tail.
-/
import proofs.«423520_j8486855376997_1_alg».proof.Proof.KernelArrays
import proofs.«423520_j8486855376997_1_alg».proof.Proof.KernelTail
import Idealize.ShloMosaic.Lib.IdealHost

set_option maxRecDepth 16384

noncomputable section

namespace Cert.KernelIdeal.Value

open Idealize.ShloMosaic Idealize.ShloMosaic.TcCoe Idealize.ShloMosaic.ValueIdx Idealize.SL.Sem
open Idealize.ShloMosaic.Pipeline (Dat)
open Cert.KernelIdeal Cert.KernelIdeal.Gen
open Cert.LossSpec (logSig logSigNeg tokIdx InRange)

variable (m : (ℓ : Loc nD τ sig) → Buf (Elt Ideal) ℓ) (ρ : Dev nD → PrngReg)

/-- Row 1024·b + s, column v of the logits the region finds is entry (b, s, v) of the first argument. -/
theorem logits_at (c : Dev nD) (b : Fin 4) (s : Fin 1024) (v : Fin 32000) :
    Accum.Xn m c (1024 * b.val + s.val) v.val
      = (m ((c : Thread nD τ).loc main_arg0) : FVec Ideal S4x1024x32000 .f32) (ix3 (n0 := 4) (n1 := 1024) (n2 := 32000) b s v) := by
  have hb := b.isLt
  have hs := s.isLt
  unfold Accum.Xn
  rw [dif_pos ⟨by omega, v.isLt⟩, Tail.logits_found]
  refine shapeCast_apply _ _ _ (ix3 (n0 := 4) (n1 := 1024) (n2 := 32000) b s v) ?_
  rw [Shape.rowMajor_val_three, Shape.rowMajor_val_two]
  show (b.val * 1024 + s.val) * 32000 + v.val = (1024 * b.val + s.val) * 32000 + v.val
  omega

/-- The token of row 1024·b + s the region finds is entry (b, s) of the second argument. -/
theorem tokens_at (c : Dev nD) (b : Fin 4) (s : Fin 1024) :
    Accum.Tn m c (1024 * b.val + s.val)
      = (m ((c : Thread nD τ).loc main_arg1) : IVec S4x1024 32) (ix2 (n0 := 4) (n1 := 1024) b s) := by
  have hb := b.isLt
  have hs := s.isLt
  unfold Accum.Tn
  rw [dif_pos (by omega), Tail.tokens_found]
  refine shapeCast_apply _ _ _ (ix2 (n0 := 4) (n1 := 1024) b s) ?_
  rw [Shape.rowMajor_val_two, Shape.rowMajor_val_two]
  show b.val * 1024 + s.val = (1024 * b.val + s.val) * 1 + 0
  omega

/-- If every token of the second argument is a column, so is every token the region finds. -/
theorem tokOk (c : Dev nD) (htok : ∀ j : S4x1024.Idx, InRange ((m ((c : Thread nD τ).loc main_arg1) : IVec S4x1024 32) j)) :
    Accum.TokOk m c := by
  intro j
  rw [Tail.tokens_found]
  exact htok _

/-- A reshaped 4096 x 1 result array at (b, s) is the array at row 1024·b + s. -/
theorem rows_at (G : Vec Ideal S4096x1 .f32) (b : Fin 4) (s : Fin 1024) :
    shapeCast S4x1024 G Cert.KernelIdeal.Gen.shapeCasts_S4096x1_S4x1024 (ix2 (n0 := 4) (n1 := 1024) b s)
      = G (ix2 (n0 := 4096) (n1 := 1) ⟨1024 * b.val + s.val, by have := b.isLt; have := s.isLt; omega⟩ 0) := by
  refine shapeCast_apply _ _ _ _ ?_
  rw [Shape.rowMajor_val_two, Shape.rowMajor_val_two]
  show (1024 * b.val + s.val) * 1 + 0 = b.val * 1024 + s.val
  omega

/-- The second result array, reshaped, is the specification's picked lσ(x). -/
theorem picked_pos (c : Dev nD) (hT : Accum.TokOk m c) :
    shapeCast S4x1024 (Accum.G1 m c) Cert.KernelIdeal.Gen.shapeCasts_S4096x1_S4x1024
      = Cert.LossSpec.picked logSig (m ((c : Thread nD τ).loc main_arg0)) (m ((c : Thread nD τ).loc main_arg1)) := by
  funext j
  obtain ⟨b, s, rfl⟩ : ∃ (b : Fin 4) (s : Fin 1024), j = ix2 (n0 := 4) (n1 := 1024) b s := ⟨j 0, j 1, eq_ix2 j⟩
  rw [rows_at]
  show logSig (Accum.Xn m c (1024 * b.val + s.val) (tokIdx (Accum.Tn m c (1024 * b.val + s.val))).val) = _
  rw [logits_at, tokens_at]
  rfl

/-- The third result array, reshaped, is the specification's picked lσ(-x). -/
theorem picked_neg (c : Dev nD) (hT : Accum.TokOk m c) :
    shapeCast S4x1024 (Accum.G2 m c) Cert.KernelIdeal.Gen.shapeCasts_S4096x1_S4x1024
      = Cert.LossSpec.picked logSigNeg (m ((c : Thread nD τ).loc main_arg0)) (m ((c : Thread nD τ).loc main_arg1)) := by
  funext j
  obtain ⟨b, s, rfl⟩ : ∃ (b : Fin 4) (s : Fin 1024), j = ix2 (n0 := 4) (n1 := 1024) b s := ⟨j 0, j 1, eq_ix2 j⟩
  rw [rows_at]
  show logSigNeg (Accum.Xn m c (1024 * b.val + s.val) (tokIdx (Accum.Tn m c (1024 * b.val + s.val))).val) = _
  rw [logits_at, tokens_at]
  rfl

theorem lift_batch (b : Fin 4) (s : Fin 1024) :
    (by decide : S4x1024.Reduces [1] S4).lift (ix1 b) s = ix2 (n0 := 4) (n1 := 1024) b s := by
  funext a
  match a with
  | ⟨0, _⟩ => rfl
  | ⟨1, _⟩ => rfl

/-- The first result array, reshaped and summed over the rows of each batch entry, is the specification's per-batch sum. -/
theorem batch_sums (c : Dev nD) :
    Host.reduceAdd (F := Ideal) (shapeCast S4x1024 (Accum.G0 m c) Cert.KernelIdeal.Gen.shapeCasts_S4096x1_S4x1024)
        (constant (F := Ideal) S_ .f32 0x00000000#32) Cert.KernelIdeal.Gen.reducesTo_S4x1024_S4_d1 Cert.KernelIdeal.Gen.h_S_
      = Cert.LossSpec.batchSum (m ((c : Thread nD τ).loc main_arg0)) := by
  funext j
  obtain ⟨b, rfl⟩ : ∃ b : Fin 4, j = ix1 b := ⟨j 0, eq_ix1 j⟩
  rw [hostReduceAdd_apply, Ideal.hostReduceAdd_single _ (by decide : S4x1024.Reduces [1] S4)]
  show Ideal.ofBits .f32 0x00000000#32 + _ = _
  rw [Ideal.ofBits_zero_f32, zero_add]
  unfold Cert.LossSpec.batchSum
  refine Finset.sum_congr rfl fun s _ => ?_
  refine (congrArg (shapeCast S4x1024 (Accum.G0 m c) Cert.KernelIdeal.Gen.shapeCasts_S4096x1_S4x1024) (lift_batch b s)).trans ?_
  refine (rows_at (Accum.G0 m c) b s).trans ?_
  show (∑ v : Fin 32000, logSigNeg (Accum.Xn m c (1024 * b.val + s.val) v.val)) = _
  exact Finset.sum_congr rfl fun v _ => congrArg logSigNeg (logits_at m c b s v)

/-- Every weakly fair execution of the idealized kernel program, from arguments whose tokens are columns, ends with the
    result buffer at the specification's loss of the arguments, and the arguments unchanged. -/
theorem run_loss (htok : ∀ (c : Dev nD) (j : S4x1024.Idx), InRange ((m ((c : Thread nD τ).loc main_arg1) : IVec S4x1024 32) j)) :
    θ_run defs (onTc (τ := τ) (main (F := Ideal))) ⟨m, fun _ => 0, ρ⟩ fun r => ∀ c : Dev nD,
      r.2.mem ((c.tc : Thread nD τ).loc main_v17)
          = Cert.LossSpec.loss Cert.KernelIdeal.Gen.reducesTo_S4x1024_S_d0_1 Cert.KernelIdeal.Gen.reducesTo_S4x1024_S4_d1
              Cert.KernelIdeal.Gen.reducesTo_S4_S_d0 Cert.KernelIdeal.Gen.bcast_S_S4 Cert.KernelIdeal.Gen.h_S_
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    have hT := tokOk m c (htok c)
    refine ⟨?_, ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩
    refine (((h c).2 main_v17 (Pipeline.mem_restRefs_of main_v17 (by decide) (by decide))).trans (Tail.loss_of_arrays m c)).trans ?_
    rw [Accum.final2 m c, Accum.final3 m c hT, Accum.final4 m c hT, picked_pos m c hT, picked_neg m c hT, batch_sums m c]
    rfl) (run_main m ρ)

end Cert.KernelIdeal.Value

end
-- ==== Proof.RefRun.lean ====
/-
  The reference program as a straight line of host operations, and its run.

  The program's @main calls four outlined functions (log_sigmoid twice, each calling softplus, and take_along_axis
  twice).  A call executes the callee's body on the caller's buffers, so @main is one line of 99 operations: the
  callee's operations written at the call site over that call's buffer record.  Every weakly fair execution of
  such a line terminates with each buffer at the fold of the operations' results over the launch contents; the fold
  at the result buffer is named here as a composition of four array functions (a splat softplus, log σ, the
  gather along the last axis with its range test, and the shared closing arithmetic), and the two argument buffers
  are written by no operation.
-/
import proofs.«423520_j8486855376997_1_alg».proof.Proof.Gen.ReferenceIdeal
import proofs.«423520_j8486855376997_1_alg».proof.Proof.Spec
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The operations, in order -/

/-- @main's 99 operations: its own 27 lines, and at each call the callee's lines over the call's buffers
    (softplus 14 inside each log_sigmoid's 3; take_along_axis 22). -/
abbrev ops : List (HloOp τ sig (Elt F)) :=
  [ unary main_arg1 main_v0 (broadcastInDim S4x1024x1 ![0, 1] bcast_S4x1024_S4x1024x1_0_1 : (⟨S4x1024, .i32⟩ : BufTy).Contents (Elt F) → (⟨S4x1024x1, .i32⟩ : BufTy).Contents (Elt F)),
    -- log_sigmoid(%arg0), record main_call0
    TRef.unary (.of main_arg0 : TRef sig ⟨S4x1024x32000, .f32⟩) main_call0.v0 Host.negf,
    TRef.nullary main_call0.call0.cst (constant S_ .f32 0x00000000#32),
    TRef.unary main_call0.call0.cst main_call0.call0.v0 (broadcastInDim S4x1024x32000 ![] bcast_S_S4x1024x32000),
    TRef.binary main_call0.v0 main_call0.call0.v0 main_call0.call0.v1 maximumf,
    TRef.unary main_call0.call0.cst main_call0.call0.v2 (broadcastInDim S4x1024x32000 ![] bcast_S_S4x1024x32000),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S4x1024x32000 ![] bcast_S_S4x1024x32000),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_arg0 main_v2 (Host.negf : (⟨S4x1024x32000, .f32⟩ : BufTy).Contents (Elt F) → (⟨S4x1024x32000, .f32⟩ : BufTy).Contents (Elt F)),
    -- log_sigmoid_0(%2), record main_call1
    TRef.unary (.of main_v2 : TRef sig ⟨S4x1024x32000, .f32⟩) main_call1.v0 Host.negf,
    TRef.nullary main_call1.call0.cst (constant S_ .f32 0x00000000#32),
    TRef.unary main_call1.call0.cst main_call1.call0.v0 (broadcastInDim S4x1024x32000 ![] bcast_S_S4x1024x32000),
    TRef.binary main_call1.v0 main_call1.call0.v0 main_call1.call0.v1 maximumf,
    TRef.unary main_call1.call0.cst main_call1.call0.v2 (broadcastInDim S4x1024x32000 ![] bcast_S_S4x1024x32000),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S4x1024x32000 ![] bcast_S_S4x1024x32000),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    -- take_along_axis(%1, %0), record main_call2
    TRef.nullary main_call2.c (constantI S_ 32 0#32),
    TRef.unary main_call2.c main_call2.v0 (broadcastInDim S4x1024x1 ![] bcast_S_S4x1024x1),
    TRef.binary (.of main_v0 : TRef sig ⟨S4x1024x1, .i32⟩) main_call2.v0 main_call2.v1 (cmpi .slt),
    TRef.nullary main_call2.c_0 (constantI S_ 32 32000#32),
    TRef.unary main_call2.c_0 main_call2.v2 (broadcastInDim S4x1024x1 ![] bcast_S_S4x1024x1),
    TRef.binary (.of main_v0 : TRef sig ⟨S4x1024x1, .i32⟩) main_call2.v2 main_call2.v3 addi,
    TRef.ternary main_call2.v1 main_call2.v3 (.of main_v0 : TRef sig ⟨S4x1024x1, .i32⟩) main_call2.v4 select,
    TRef.reshape main_call2.v4 main_call2.v5 rfl shapeCasts_S4x1024x1_S4x1024x1x1,
    TRef.nullary main_call2.c_1 (constantI S1 32 31999#32),
    TRef.nullary main_call2.c_2 (constantI S_ 32 0#32),
    TRef.unary main_call2.c_2 main_call2.v6 (broadcastInDim S4x1024x1x1 ![] bcast_S_S4x1024x1x1),
    TRef.binary main_call2.v5 main_call2.v6 main_call2.v7 (cmpi .sge),
    TRef.unary main_call2.c_1 main_call2.v8 (broadcastInDim S1x1x1x1 ![3] bcast_S1_S1x1x1x1_3),
    TRef.unary main_call2.v8 main_call2.v9 (broadcastInDim S4x1024x1x1 ![0, 1, 2, 3] bcast_S1x1x1x1_S4x1024x1x1_0_1_2_3),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4x1024x1x1_S4x1024x1_d3 h_S_),
    TRef.binary (.of main_v1 : TRef sig ⟨S4x1024x32000, .f32⟩) main_call2.v5 main_call2.v13 (fun x i => Host.gather gather_S4x1024x32000_S4x1024x1x1_S4x1024x1_n_2_01_01_2_3_111 x i),
    TRef.nullary main_call2.cst (constant S_ .f32 0x7FC00000#32),
    TRef.unary main_call2.cst main_call2.v14 (broadcastInDim S4x1024x1 ![] bcast_S_S4x1024x1),
    TRef.ternary main_call2.v12 main_call2.v13 main_call2.v14 main_call2.v15 select,
    reshape main_v4 main_v5 rfl shapeCasts_S4x1024x1_S4x1024,
    nullary main_cst (constant S_ .f32 0x00000000#32),
    binary main_v5 main_cst main_v6 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    nullary main_cst_0 (constant S_ .f32 0x45800000#32),
    binary main_v6 main_cst_0 main_v7 (Host.divf : (⟨S_, .f32⟩ : BufTy).Contents (Elt F) → (⟨S_, .f32⟩ : BufTy).Contents (Elt F) → (⟨S_, .f32⟩ : BufTy).Contents (Elt F)),
    unary main_v7 main_v8 (Host.negf : (⟨S_, .f32⟩ : BufTy).Contents (Elt F) → (⟨S_, .f32⟩ : BufTy).Contents (Elt F)),
    -- take_along_axis(%3, %0), record main_call3
    TRef.nullary main_call3.c (constantI S_ 32 0#32),
    TRef.unary main_call3.c main_call3.v0 (broadcastInDim S4x1024x1 ![] bcast_S_S4x1024x1),
    TRef.binary (.of main_v0 : TRef sig ⟨S4x1024x1, .i32⟩) main_call3.v0 main_call3.v1 (cmpi .slt),
    TRef.nullary main_call3.c_0 (constantI S_ 32 32000#32),
    TRef.unary main_call3.c_0 main_call3.v2 (broadcastInDim S4x1024x1 ![] bcast_S_S4x1024x1),
    TRef.binary (.of main_v0 : TRef sig ⟨S4x1024x1, .i32⟩) main_call3.v2 main_call3.v3 addi,
    TRef.ternary main_call3.v1 main_call3.v3 (.of main_v0 : TRef sig ⟨S4x1024x1, .i32⟩) main_call3.v4 select,
    TRef.reshape main_call3.v4 main_call3.v5 rfl shapeCasts_S4x1024x1_S4x1024x1x1,
    TRef.nullary main_call3.c_1 (constantI S1 32 31999#32),
    TRef.nullary main_call3.c_2 (constantI S_ 32 0#32),
    TRef.unary main_call3.c_2 main_call3.v6 (broadcastInDim S4x1024x1x1 ![] bcast_S_S4x1024x1x1),
    TRef.binary main_call3.v5 main_call3.v6 main_call3.v7 (cmpi .sge),
    TRef.unary main_call3.c_1 main_call3.v8 (broadcastInDim S1x1x1x1 ![3] bcast_S1_S1x1x1x1_3),
    TRef.unary main_call3.v8 main_call3.v9 (broadcastInDim S4x1024x1x1 ![0, 1, 2, 3] bcast_S1x1x1x1_S4x1024x1x1_0_1_2_3),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4x1024x1x1_S4x1024x1_d3 h_S_),
    TRef.binary (.of main_v3 : TRef sig ⟨S4x1024x32000, .f32⟩) main_call3.v5 main_call3.v13 (fun x i => Host.gather gather_S4x1024x32000_S4x1024x1x1_S4x1024x1_n_2_01_01_2_3_111 x i),
    TRef.nullary main_call3.cst (constant S_ .f32 0x7FC00000#32),
    TRef.unary main_call3.cst main_call3.v14 (broadcastInDim S4x1024x1 ![] bcast_S_S4x1024x1),
    TRef.ternary main_call3.v12 main_call3.v13 main_call3.v14 main_call3.v15 select,
    reshape main_v9 main_v10 rfl shapeCasts_S4x1024x1_S4x1024,
    nullary main_cst_1 (constant S_ .f32 0x00000000#32),
    binary main_v3 main_cst_1 main_v11 ((fun x v => Host.reduceAdd x v reducesTo_S4x1024x32000_S4_d1_2 h_S_) : (⟨S4x1024x32000, .f32⟩ : BufTy).Contents (Elt F) → (⟨S_, .f32⟩ : BufTy).Contents (Elt F) → (⟨S4, .f32⟩ : BufTy).Contents (Elt F)),
    nullary main_cst_2 (constant S_ .f32 0x00000000#32),
    binary main_v10 main_cst_2 main_v12 ((fun x v => Host.reduceAdd x v reducesTo_S4x1024_S4_d1 h_S_) : (⟨S4x1024, .f32⟩ : BufTy).Contents (Elt F) → (⟨S_, .f32⟩ : BufTy).Contents (Elt F) → (⟨S4, .f32⟩ : BufTy).Contents (Elt F)),
    binary main_v11 main_v12 main_v13 (subf : (⟨S4, .f32⟩ : BufTy).Contents (Elt F) → (⟨S4, .f32⟩ : BufTy).Contents (Elt F) → (⟨S4, .f32⟩ : BufTy).Contents (Elt F)),
    unary main_v13 main_v14 (Host.negf : (⟨S4, .f32⟩ : BufTy).Contents (Elt F) → (⟨S4, .f32⟩ : BufTy).Contents (Elt F)),
    nullary main_cst_3 (constant S_ .f32 0x4BF9FE00#32),
    unary main_cst_3 main_v15 (broadcastInDim S4 ![] bcast_S_S4 : (⟨S_, .f32⟩ : BufTy).Contents (Elt F) → (⟨S4, .f32⟩ : BufTy).Contents (Elt F)),
    binary main_v14 main_v15 main_v16 (Host.divf : (⟨S4, .f32⟩ : BufTy).Contents (Elt F) → (⟨S4, .f32⟩ : BufTy).Contents (Elt F) → (⟨S4, .f32⟩ : BufTy).Contents (Elt F)),
    nullary main_cst_4 (constant S_ .f32 0x00000000#32),
    binary main_v16 main_cst_4 main_v17 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    nullary main_cst_5 (constant S_ .f32 0x40800000#32),
    binary main_v17 main_cst_5 main_v18 (Host.divf : (⟨S_, .f32⟩ : BufTy).Contents (Elt F) → (⟨S_, .f32⟩ : BufTy).Contents (Elt F) → (⟨S_, .f32⟩ : BufTy).Contents (Elt F)),
    binary main_v8 main_v18 main_v19 (addf : (⟨S_, .f32⟩ : BufTy).Contents (Elt F) → (⟨S_, .f32⟩ : BufTy).Contents (Elt F) → (⟨S_, .f32⟩ : BufTy).Contents (Elt F)) ]

-- ninety-nine binds re-associated: the rewrite under the chain recurses once per statement
set_option maxRecDepth 4096 in
set_option maxHeartbeats 4000000 in
/-- @main is that line: each function's definition unfolded at its call and sequencing re-associated, both sides are
    one chain of host steps. -/
theorem main_eq (c : Dev nD) : main (F := F) c = seq ops := by
  simp only [main, fn_log_sigmoid.body, fn_log_sigmoid_0.body, fn_softplus.body, fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub ..,
    unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..,
    unary_bufs_sub ..,
    unary_bufs_sub ..,
    unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub ..,
    unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    reshape_bufs_sub .., nullary_bufs_sub .., binary_bufs_sub .., nullary_bufs_sub .., binary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    reshape_bufs_sub .., nullary_bufs_sub .., binary_bufs_sub .., nullary_bufs_sub .., binary_bufs_sub .., binary_bufs_sub ..,
    unary_bufs_sub .., nullary_bufs_sub .., unary_bufs_sub .., binary_bufs_sub .., nullary_bufs_sub .., binary_bufs_sub ..,
    nullary_bufs_sub .., binary_bufs_sub .., binary_bufs_sub ..⟩

/-- Every weakly fair execution of @main terminates, and every final state has each TensorCore buffer at the fold
    of the operations' results over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefDefs.lean ====
/-
  The array functions the reference is made of, at any float instance.

  log σ is minus a splat softplus of the negation.  The gather along the last axis wraps a negative start index by the
  axis length, tests the index against the axis, gathers with the start index clamped, and keeps the gathered value where
  the test holds.  The reference's result is the shared closing arithmetic applied to (i) log σ of the logits gathered at
  each row's token, (ii) the per-batch sum of log σ of the negated logits, (iii) log σ of the negated logits gathered
  at each row's token.
-/
import proofs.«423520_j8486855376997_1_alg».proof.Proof.Gen.ReferenceIdeal
import proofs.«423520_j8486855376997_1_alg».proof.Proof.Spec

noncomputable section

namespace Cert.ReferenceIdeal.RefValue

open Cert.ReferenceIdeal Cert.ReferenceIdeal.Gen Idealize.ShloMosaic

variable {F : FTy → Type} [FloatOps F]

/-! ## The pieces -/

/-- The zero scalar spread over the logits' shape. -/
def zeros : FVec F S4x1024x32000 .f32 :=
  broadcastInDim S4x1024x32000 ![] bcast_S_S4x1024x32000 (constant S_ .f32 0x00000000#32)

/-- softplus as the program writes it: where y - 0 is not itself the value y + 0, elsewhere
    max(y, 0) + log1p(exp(-|y - 0|)). -/
def softplusArr (y : FVec F S4x1024x32000 .f32) : FVec F S4x1024x32000 .f32 :=
  select (cmpf .une (subf y zeros) (subf y zeros)) (addf y zeros)
    (addf (maximumf y zeros) (Host.log1p (Host.exp (Host.negf (Host.absf (subf y zeros))))))

/-- log σ(x) = -softplus(-x), elementwise. -/
def logSigArr (x : FVec F S4x1024x32000 .f32) : FVec F S4x1024x32000 .f32 :=
  Host.negf (softplusArr (Host.negf x))

/-- The token array with a trailing unit axis. -/
def tok3 (tok : IVec S4x1024 32) : IVec S4x1024x1 32 :=
  broadcastInDim S4x1024x1 ![0, 1] bcast_S4x1024_S4x1024x1_0_1 tok

/-- The gather's start indices: a negative index wrapped by the axis length, then a second trailing unit axis. -/
def startIdx (t : IVec S4x1024x1 32) : IVec S4x1024x1x1 32 :=
  shapeCast S4x1024x1x1
    (select (cmpi .slt t (broadcastInDim S4x1024x1 ![] bcast_S_S4x1024x1 (constantI S_ 32 0#32)))
      (addi t (broadcastInDim S4x1024x1 ![] bcast_S_S4x1024x1 (constantI S_ 32 32000#32))) t)
    shapeCasts_S4x1024x1_S4x1024x1x1

/-- The range test: 0 ≤ index ≤ 31999 on every component of the (one-component) index vector. -/
def inBounds (i : IVec S4x1024x1x1 32) : IVec S4x1024x1 1 :=
  Host.reduce IntOp.andi
    (andi (cmpi .sge i (broadcastInDim S4x1024x1x1 ![] bcast_S_S4x1024x1x1 (constantI S_ 32 0#32)))
      (cmpi .sle i (broadcastInDim S4x1024x1x1 ![0, 1, 2, 3] bcast_S1x1x1x1_S4x1024x1x1_0_1_2_3
        (broadcastInDim S1x1x1x1 ![3] bcast_S1_S1x1x1x1_3 (constantI S1 32 31999#32)))))
    (constantI S_ 1 1#1) reducesTo_S4x1024x1x1_S4x1024x1_d3 h_S_

/-- take_along_axis on the last axis: the gathered element where the index is in range, a fill value elsewhere. -/
def takeArr (L : FVec F S4x1024x32000 .f32) (t : IVec S4x1024x1 32) : FVec F S4x1024x1 .f32 :=
  select (inBounds (startIdx t))
    (Host.gather gather_S4x1024x32000_S4x1024x1x1_S4x1024x1_n_2_01_01_2_3_111 L (startIdx t))
    (broadcastInDim S4x1024x1 ![] bcast_S_S4x1024x1 (constant S_ .f32 0x7FC00000#32))

/-- One element per row: the array at the row's token, the unit axis dropped. -/
def pickArr (L : FVec F S4x1024x32000 .f32) (tok : IVec S4x1024 32) : FVec F S4x1024 .f32 :=
  shapeCast S4x1024 (takeArr L (tok3 tok)) shapeCasts_S4x1024x1_S4x1024

/-- One element per batch entry: the host's sum over rows and columns, from zero. -/
def sumArr (L : FVec F S4x1024x32000 .f32) : FVec F S4 .f32 :=
  Host.reduceAdd L (constant S_ .f32 0x00000000#32) reducesTo_S4x1024x32000_S4_d1_2 h_S_

/-- What the reference computes from its two arguments. -/
def refLoss (x : FVec F S4x1024x32000 .f32) (tok : IVec S4x1024 32) : FVec F S_ .f32 :=
  Cert.LossSpec.tail reducesTo_S4x1024_S_d0_1 reducesTo_S4x1024_S4_d1 reducesTo_S4_S_d0 bcast_S_S4 h_S_
    (pickArr (logSigArr x) tok) (sumArr (logSigArr (Host.negf x))) (pickArr (logSigArr (Host.negf x)) tok)

end Cert.ReferenceIdeal.RefValue

end
-- ==== Proof.RefTerm.lean ====
/-
  The fold of the reference's 99 operations, read at three buffers, and the run with the result named.

  At the result buffer the fold is the composition of array functions named refLoss: each operation's result read at
  its own buffer is its function of its operands' contents, no buffer is written twice, and a typed reference's
  transport to and from its buffer's type cancels.  No operation writes an argument's buffer.  So every weakly fair
  execution of @main ends with the result buffer at refLoss of the arguments and the arguments unchanged.
-/
import proofs.«423520_j8486855376997_1_alg».proof.Proof.RefRun
import proofs.«423520_j8486855376997_1_alg».proof.Proof.RefDefs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The fold at the three buffers -/

/-- The fold at the result buffer is that composition: each operation's result read at its own buffer is its
    function of the operands' contents, and no buffer is written twice. -/
theorem out_eq (V : Valuation τ sig (Elt F)) :
    after ops V (main_v19 : DevRef τ sig) = refLoss (V (main_arg0 : DevRef τ sig)) (V (main_arg1 : DevRef τ sig)) := by
  after_results_simp
  simp only [TRef.ofBuf, TRef.toBuf, cast_cast, cast_eq]
  rfl

/-- No operation writes the first argument's buffer. -/
theorem arg0_eq (V : Valuation τ sig (Elt F)) :
    after ops V (main_arg0 : DevRef τ sig) = V (main_arg0 : DevRef τ sig) := by
  after_results_simp

/-- No operation writes the second argument's buffer. -/
theorem arg1_eq (V : Valuation τ sig (Elt F)) :
    after ops V (main_arg1 : DevRef τ sig) = V (main_arg1 : DevRef τ sig) := by
  after_results_simp

/-! ## The run, with the result named -/

/-- At any float instance: every weakly fair execution of @main terminates with the result buffer at
    refLoss of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19)
          = refLoss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (out_eq _), (h c main_arg0).trans (arg0_eq _),
      (h c main_arg1).trans (arg1_eq _)⟩) (run_main m ρ)

/-- (1) At any float instance, every weakly fair execution of @main terminates and the arguments end unchanged. -/
theorem run_frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).2.1, (h c).2.2⟩) (run m ρ)

end Cert.ReferenceIdeal.RefValue

end
-- ==== Proof.RefElem.lean ====
/-
  The elementwise part and the batch sum, on the extended reals.

  On the extended reals a value never differs from itself, so softplus's select always takes its second branch, and
  "minus zero" and "plus zero" change nothing: the program's softplus is max(y, 0) + log1p(exp(-|y|)), and its log σ is
  the specification's.  The host's sum over axes 1 and 2 at batch entry b runs over the indices whose first coordinate
  is b; re-indexed by the other two coordinates it is the double sum over rows and columns.
-/
import proofs.«423520_j8486855376997_1_alg».proof.Proof.RefDefs
import Idealize.ShloMosaic.PureOps.Ideal.Laws
import Idealize.ShloMosaic.PureOps.Reduce
import Idealize.ShloMosaic.Lib.ValueIdx
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## log σ at an index -/

/-- The zero splat reads zero. -/
theorem zeros_apply (i : S4x1024x32000.Idx) : (zeros (F := Ideal)) i = (0 : EReal) := Ideal.ofBits_zero_f32

/-- No extended real differs from itself. -/
theorem cmp_une_self (a : EReal) : Ideal.cmp .une a a = 0#1 := by
  simp [Ideal.cmp]

/-- The program's softplus at an index is the specification's softplus of the element. -/
theorem softplusArr_apply (y : FVec Ideal S4x1024x32000 .f32) (i : S4x1024x32000.Idx) :
    softplusArr y i = Cert.LossSpec.softplus (y i) := by
  show Scalar.select (Ideal.cmp .une (y i - (zeros (F := Ideal)) i) (y i - (zeros (F := Ideal)) i)) (y i + (zeros (F := Ideal)) i)
      (max (y i) ((zeros (F := Ideal)) i)
        + Ideal.log1p (Ideal.exp (-(max (y i - (zeros (F := Ideal)) i) (-(y i - (zeros (F := Ideal)) i)))))) = _
  rw [cmp_une_self, select_zero, zeros_apply, sub_zero]
  rfl

/-- The program's log σ at an index is the specification's log σ of the element. -/
theorem logSigArr_apply (x : FVec Ideal S4x1024x32000 .f32) (i : S4x1024x32000.Idx) :
    logSigArr x i = Cert.LossSpec.logSig (x i) := by
  show -(softplusArr (Host.negf x) i) = _
  rw [softplusArr_apply]
  rfl

/-- On the negated array it is log σ(-x) = log(1 - σ(x)). -/
theorem logSigArr_neg_apply (x : FVec Ideal S4x1024x32000 .f32) (i : S4x1024x32000.Idx) :
    logSigArr (Host.negf x) i = Cert.LossSpec.logSigNeg (x i) := by
  rw [logSigArr_apply]
  rfl

/-! ## The sum over rows and columns -/

/-- The indices that reduce to batch entry b are those whose first coordinate is b; by their other two coordinates
    they are the pairs (row, column). -/
theorem sum_fiber (g : S4x1024x32000.Idx → EReal) (b : Fin 4) :
    ∑ i ∈ Finset.univ.filter (fun i : S4x1024x32000.Idx => reducesTo_S4x1024x32000_S4_d1_2.drop i = ix1 b), g i
      = ∑ s : Fin 1024, ∑ v : Fin 32000, g (ix3 b s v) := by
  have hdrop : ∀ i : S4x1024x32000.Idx, reducesTo_S4x1024x32000_S4_d1_2.drop i = ix1 b ↔ (i 0).val = b.val := by
    intro i
    have hv : ((reducesTo_S4x1024x32000_S4_d1_2.drop i) 0 : Nat) = (i 0).val :=
      Shape.ReducesTo.drop_apply_val_of_eq reducesTo_S4x1024x32000_S4_d1_2 i 0 0
    constructor
    · intro e; rw [e] at hv; exact hv.symm
    · intro e; funext a
      match a with
      | ⟨0, _⟩ => exact Fin.ext (hv.trans e)
  have hback : ∀ i : S4x1024x32000.Idx, (i 0).val = b.val →
      ix3 b (⟨(i 1).val, (i 1).isLt⟩ : Fin 1024) (⟨(i 2).val, (i 2).isLt⟩ : Fin 32000) = i := by
    intro i h0; funext a
    match a with
    | ⟨0, _⟩ => exact Fin.ext h0.symm
    | ⟨1, _⟩ => rfl
    | ⟨2, _⟩ => rfl
  rw [← Finset.sum_product', Finset.univ_product_univ]
  refine Finset.sum_bij'
    (fun i _ => ((⟨(i 1).val, (i 1).isLt⟩ : Fin 1024), (⟨(i 2).val, (i 2).isLt⟩ : Fin 32000)))
    (fun p _ => ix3 b p.1 p.2) (fun _ _ => Finset.mem_univ _)
    (fun p _ => Finset.mem_filter.2 ⟨Finset.mem_univ _, (hdrop _).2 rfl⟩) ?_ (fun _ _ => rfl) ?_
  · intro i hi
    exact hback i ((hdrop i).1 (Finset.mem_filter.1 hi).2)
  · intro i hi
    exact (congrArg g (hback i ((hdrop i).1 (Finset.mem_filter.1 hi).2))).symm

/-- (ii) The per-batch host sum of log σ of the negated logits is the specification's batch sum. -/
theorem sumArr_eq (x : FVec Ideal S4x1024x32000 .f32) :
    sumArr (logSigArr (Host.negf x)) = Cert.LossSpec.batchSum x := by
  funext j
  obtain ⟨b, rfl⟩ : ∃ b : Fin 4, j = ix1 b := ⟨j 0, eq_ix1 j⟩
  show Ideal.hostReduceAdd reducesTo_S4x1024x32000_S4_d1_2 (logSigArr (Host.negf x)) (Ideal.ofBits .f32 0x00000000#32) (ix1 b) = _
  unfold Ideal.hostReduceAdd
  rw [Ideal.ofBits_zero_f32, zero_add, sum_fiber]
  exact Finset.sum_congr rfl fun s _ => Finset.sum_congr rfl fun v _ => logSigArr_neg_apply x _

end Cert.ReferenceIdeal.RefValue

end
-- ==== Proof.RefGather.lean ====
/-
  The gather along the last axis, read at a row, when every token is a column.

  For a token word w with 0 ≤ w < 32000 as a signed integer: the wrap of a negative index leaves w, both range
  tests hold, so the range mask is all ones and the select keeps the gathered value; the gather's operand index at
  result (b, s, 0) is (b, s, the start index clamped into the axis), and the clamp leaves w.  So the picked array at
  (b, s) is the operand at (b, s, w).
-/
import proofs.«423520_j8486855376997_1_alg».proof.Proof.RefDefs
import Idealize.ShloMosaic.PureOps.Reduce
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx
open Cert.LossSpec (InRange tokIdx)

variable {F : FTy → Type} [FloatOps F]

/-! ## Words in range -/

theorem toInt_zero32 : (0#32 : BitVec 32).toInt = 0 := by decide
theorem toInt_31999 : (31999#32 : BitVec 32).toInt = 31999 := by decide

/-- An in-range word is not negative, so the wrap keeps it. -/
theorem wrap_inRange {w : BitVec 32} (h : InRange w) :
    Scalar.select (IntOp.cmpi .slt w 0#32) (IntOp.addi w 32000#32) w = w := by
  have hlt : w.slt 0#32 = false := by
    simp only [BitVec.slt, toInt_zero32, decide_eq_false_iff_not, not_lt]; exact h.1
  have hc : IntOp.cmpi .slt w 0#32 = 0#1 := by
    show BitVec.ofBool (w.slt 0#32) = 0#1
    rw [hlt]; rfl
  rw [hc, select_zero]

/-- An in-range word passes the lower test. -/
theorem sge_zero {w : BitVec 32} (h : InRange w) : IntOp.cmpi .sge w 0#32 = 1#1 := by
  have hle : (0#32 : BitVec 32).sle w = true := by
    simp only [BitVec.sle, toInt_zero32, decide_eq_true_eq]; exact h.1
  show BitVec.ofBool ((0#32 : BitVec 32).sle w) = 1#1
  rw [hle]; rfl

/-- An in-range word passes the upper test. -/
theorem sle_max {w : BitVec 32} (h : InRange w) : IntOp.cmpi .sle w 31999#32 = 1#1 := by
  have hle : w.sle 31999#32 = true := by
    simp only [BitVec.sle, toInt_31999, decide_eq_true_eq]; have := h.2; omega
  show BitVec.ofBool (w.sle 31999#32) = 1#1
  rw [hle]; rfl

/-- A start index read signed and clamped into the last axis. -/
def clampIdx {w : Nat} (v : BitVec w) : Fin 32000 := ⟨min v.toInt.toNat 31999, by omega⟩

/-- The clamp of an in-range word is the word, as a column. -/
theorem clampIdx_inRange {w : BitVec 32} (h : InRange w) : clampIdx w = tokIdx w := by
  refine Fin.ext ?_
  rw [Cert.LossSpec.tokIdx_val h]
  have h1 := Cert.LossSpec.toNat_lt h
  have h2 : w.toInt = (w.toNat : Int) := by
    have := BitVec.toInt_eq_toNat_cond w
    obtain ⟨h0, h3⟩ := h
    split at this <;> omega
  show min w.toInt.toNat 31999 = w.toNat
  rw [h2, Int.toNat_natCast]
  omega

/-! ## The start indices and the range mask -/

/-- With a trailing unit axis every token word is still a token word. -/
theorem tok3_inRange (tok : IVec S4x1024 32) (htok : ∀ j, InRange (tok j)) (k : S4x1024x1.Idx) : InRange (tok3 tok k) :=
  htok _

/-- At (b, s, ·) it is the token of row (b, s). -/
theorem tok3_apply (tok : IVec S4x1024 32) (b : Fin 4) (s : Fin 1024) (u : Fin 1) :
    tok3 tok (ix3 b s u) = tok (ix2 b s) := by
  unfold tok3
  exact broadcastInDim_apply _ _ tok _ (ix2 b s) fun a => match a with | ⟨0, _⟩ => rfl | ⟨1, _⟩ => rfl

/-- On in-range indices the start index is the index itself (re-indexed by the added unit axis). -/
theorem startIdx_apply (t : IVec S4x1024x1 32) (ht : ∀ k, InRange (t k)) (i : S4x1024x1x1.Idx) :
    startIdx t i = t (Shape.reshapeEquiv shapeCasts_S4x1024x1_S4x1024x1x1 i) := by
  show Scalar.select (IntOp.cmpi .slt (t _) 0#32) (IntOp.addi (t _) 32000#32) (t _) = t _
  exact wrap_inRange (ht _)

/-- At (b, s, 0, 0) it is the token of row (b, s). -/
theorem startIdx_row (tok : IVec S4x1024 32) (htok : ∀ j, InRange (tok j)) (b : Fin 4) (s : Fin 1024) :
    startIdx (tok3 tok) (ix4 b s (0 : Fin 1) (0 : Fin 1)) = tok (ix2 b s) := by
  rw [startIdx_apply _ (tok3_inRange tok htok)]
  have hre : Shape.reshapeEquiv shapeCasts_S4x1024x1_S4x1024x1x1 (ix4 b s (0 : Fin 1) (0 : Fin 1)) = ix3 b s (0 : Fin 1) :=
    Shape.reshapeEquiv_eq_of_rowMajor _ (by
      rw [Shape.rowMajor_val_three, Shape.rowMajor_val_four]
      show (b.val * 1024 + s.val) * 1 + 0 = ((b.val * 1024 + s.val) * 1 + 0) * 1 + 0
      omega)
  rw [hre, tok3_apply]

/-- A fold of "and" from one over ones is one. -/
theorem fold_andi_one {ι : Type} (S : Finset ι) (f : ι → BitVec 1) (hf : ∀ i ∈ S, f i = 1#1) :
    S.fold IntOp.andi 1#1 f = 1#1 := by
  induction S using Finset.cons_induction with
  | empty => rfl
  | cons a S ha ih =>
    rw [Finset.fold_cons, hf a (Finset.mem_cons_self a S), ih fun i hi => hf i (Finset.mem_cons.mpr (Or.inr hi))]
    rfl

/-- When every start index is in range the range mask is all ones. -/
theorem inBounds_one (I : IVec S4x1024x1x1 32) (hI : ∀ i, InRange (I i)) (k : S4x1024x1.Idx) : inBounds I k = 1#1 := by
  unfold inBounds
  rw [Host.reduce_eq_fold]
  refine fold_andi_one _ _ fun i _ => ?_
  show IntOp.andi (IntOp.cmpi .sge (I i) 0#32) (IntOp.cmpi .sle (I i) 31999#32) = 1#1
  rw [sge_zero (hI i), sle_max (hI i)]
  rfl

/-! ## The gather's operand index at a row -/

/-- The program's dimension numbers. -/
abbrev gd : GatherDims S4x1024x32000 S4x1024x1x1 S4x1024x1 := gather_S4x1024x32000_S4x1024x1x1_S4x1024x1_n_2_01_01_2_3_111

/-- The start-indices index result (b, s, 0) reads its one start-index component at: (b, s, 0, 0). -/
theorem siIdx_row (b : Fin 4) (s : Fin 1024) (c : Fin gd.startIndexMap.length) :
    gd.siIdx (ix3 b s (0 : Fin 1)) c = ix4 b s (0 : Fin 1) (0 : Fin 1) := by
  funext e
  refine Fin.ext ?_
  have hc : c.val = 0 := by
    have h1 := c.isLt
    have h2 : gd.startIndexMap.length = 1 := rfl
    omega
  match e with
  | ⟨0, _⟩ => rfl
  | ⟨1, _⟩ => rfl
  | ⟨2, _⟩ => rfl
  | ⟨3, _⟩ => exact hc

/-- The operand index of result (b, s, 0): the two batching coordinates, and on the collapsed axis the start index
    clamped into the axis. -/
theorem operandIdx_row {w : Nat} (I : IVec S4x1024x1x1 w) (b : Fin 4) (s : Fin 1024) :
    gd.operandIdx (ix3 b s (0 : Fin 1)) I = ix3 b s (clampIdx (I (ix4 b s (0 : Fin 1) (0 : Fin 1)))) := by
  funext a
  refine Fin.ext ?_
  match a with
  | ⟨0, _⟩ =>
    show gd.start (ix3 b s (0 : Fin 1)) I 0 + gd.batchCoord (ix3 b s (0 : Fin 1)) 0 + gd.offCoord (ix3 b s (0 : Fin 1)) 0 = b.val
    rw [gd.start_batching _ _ _ (by decide), gd.offCoord_eq_zero _ _ (by decide), Nat.zero_add, Nat.add_zero]
    rfl
  | ⟨1, _⟩ =>
    show gd.start (ix3 b s (0 : Fin 1)) I 1 + gd.batchCoord (ix3 b s (0 : Fin 1)) 1 + gd.offCoord (ix3 b s (0 : Fin 1)) 1 = s.val
    rw [gd.start_batching _ _ _ (by decide), gd.offCoord_eq_zero _ _ (by decide), Nat.zero_add, Nat.add_zero]
    rfl
  | ⟨2, _⟩ =>
    show gd.start (ix3 b s (0 : Fin 1)) I 2 + gd.batchCoord (ix3 b s (0 : Fin 1)) 2 + gd.offCoord (ix3 b s (0 : Fin 1)) 2
      = min (I (ix4 b s (0 : Fin 1) (0 : Fin 1))).toInt.toNat 31999
    rw [gd.batchCoord_eq_zero _ _ (by decide), gd.offCoord_eq_zero _ _ (by decide), Nat.add_zero]
    unfold GatherDims.start
    rw [dif_pos (by decide), siIdx_row]
    rfl

/-! ## The picked array -/

/-- The gather with its range test, at row (b, s): the operand at the row's token. -/
theorem takeArr_row (L : FVec F S4x1024x32000 .f32) (tok : IVec S4x1024 32) (htok : ∀ j, InRange (tok j))
    (b : Fin 4) (s : Fin 1024) :
    takeArr L (tok3 tok) (ix3 b s (0 : Fin 1)) = L (ix3 b s (tokIdx (tok (ix2 b s)))) := by
  have hI : ∀ i, InRange (startIdx (tok3 tok) i) := fun i => by
    rw [startIdx_apply _ (tok3_inRange tok htok)]; exact tok3_inRange tok htok _
  show Scalar.select (inBounds (startIdx (tok3 tok)) (ix3 b s (0 : Fin 1)))
      (L (gd.operandIdx (ix3 b s (0 : Fin 1)) (startIdx (tok3 tok)))) _ = _
  rw [inBounds_one _ hI, select_one, operandIdx_row, startIdx_row tok htok, clampIdx_inRange (htok _)]

/-- The picked array at row (b, s) is the operand at (b, s, the row's token). -/
theorem pickArr_apply (L : FVec F S4x1024x32000 .f32) (tok : IVec S4x1024 32) (htok : ∀ j, InRange (tok j))
    (b : Fin 4) (s : Fin 1024) :
    pickArr L tok (ix2 b s) = L (ix3 b s (tokIdx (tok (ix2 b s)))) := by
  unfold pickArr
  rw [shapeCast_apply _ _ _ (ix3 b s (0 : Fin 1)) (by
    rw [Shape.rowMajor_val_three, Shape.rowMajor_val_two]
    show (b.val * 1024 + s.val) * 1 + 0 = b.val * 1024 + s.val
    omega)]
  exact takeArr_row L tok htok b s

end Cert.ReferenceIdeal.RefValue

end
-- ==== Proof.RefValue.lean ====
/-
  The reference's result is the specification's loss.

  When every token word is a column, the three arrays the closing arithmetic is applied to are the specification's:
  the picked log σ(x), the per-batch sum of log σ(-x), and the picked log σ(-x).  The closing arithmetic is the same
  function on both sides and is never opened.
-/
import proofs.«423520_j8486855376997_1_alg».proof.Proof.RefTerm
import proofs.«423520_j8486855376997_1_alg».proof.Proof.RefElem
import proofs.«423520_j8486855376997_1_alg».proof.Proof.RefGather

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- (i) log σ of the logits, gathered at each row's token. -/
theorem pick_logSig (x : FVec Ideal S4x1024x32000 .f32) (tok : IVec S4x1024 32)
    (htok : ∀ j, Cert.LossSpec.InRange (tok j)) :
    pickArr (logSigArr x) tok = Cert.LossSpec.picked Cert.LossSpec.logSig x tok := by
  funext j
  obtain ⟨b, s, rfl⟩ : ∃ (b : Fin 4) (s : Fin 1024), j = ix2 b s := ⟨j 0, j 1, eq_ix2 j⟩
  rw [pickArr_apply _ _ htok, logSigArr_apply]
  rfl

/-- (iii) log σ of the negated logits, gathered at each row's token. -/
theorem pick_logSigNeg (x : FVec Ideal S4x1024x32000 .f32) (tok : IVec S4x1024 32)
    (htok : ∀ j, Cert.LossSpec.InRange (tok j)) :
    pickArr (logSigArr (Host.negf x)) tok = Cert.LossSpec.picked Cert.LossSpec.logSigNeg x tok := by
  funext j
  obtain ⟨b, s, rfl⟩ : ∃ (b : Fin 4) (s : Fin 1024), j = ix2 b s := ⟨j 0, j 1, eq_ix2 j⟩
  rw [pickArr_apply _ _ htok, logSigArr_neg_apply]
  rfl

/-- The reference's composed term is the specification's loss of the two arguments. -/
theorem refLoss_eq (x : FVec Ideal S4x1024x32000 .f32) (tok : IVec S4x1024 32)
    (htok : ∀ j, Cert.LossSpec.InRange (tok j)) :
    refLoss x tok
      = Cert.LossSpec.loss reducesTo_S4x1024_S_d0_1 reducesTo_S4x1024_S4_d1 reducesTo_S4_S_d0 bcast_S_S4 h_S_ x tok := by
  unfold refLoss Cert.LossSpec.loss
  rw [pick_logSig x tok htok, sumArr_eq, pick_logSigNeg x tok htok]

/-- (2) At Ideal, when every token word is a column, the result buffer ends at the specification's loss of the two
    argument arrays, and the arguments end unchanged. -/
theorem run_loss (m : (ℓ : Loc nD τ sig) → Buf (Elt Ideal) ℓ) (ρ : Dev nD → PrngReg)
    (htok : ∀ (c : Dev nD) (j : S4x1024.Idx), Cert.LossSpec.InRange (m ((c.tc : Thread nD τ).loc main_arg1) j)) :
    θ_run defs (onTc (τ := τ) (main (F := Ideal))) ⟨m, fun _ => 0, ρ⟩ fun r => ∀ c : Dev nD,
      r.2.mem ((c.tc : Thread nD τ).loc main_v19)
          = Cert.LossSpec.loss reducesTo_S4x1024_S_d0_1 reducesTo_S4x1024_S4_d1 reducesTo_S4_S_d0 bcast_S_S4 h_S_
              (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refLoss_eq _ _ (htok c)), (h c).2.1, (h c).2.2⟩) (run m ρ)

end Cert.ReferenceIdeal.RefValue

end
-- ==== Proof.lean ====
/-
  The certificate of the probabilistic sigmoid loss: a Pallas kernel that sweeps the vocabulary in tiles, against jnp.

  For logits x[b, s, v] (4 x 1024 x 32000) and one token id per row, both programs compute

      -(1/4096) · Σ_{b,s} lσ(x[b,s,tok[b,s]])
        + (1/4) · Σ_b  -( Σ_{s,v} lσ(-x[b,s,v]) - Σ_s lσ(-x[b,s,tok[b,s]]) ) / (1024 · 31999),      lσ = log σ.

  The reference gathers the token's column of lσ(x) and of lσ(-x) with take_along_axis and sums lσ(-x) over rows and
  columns.  The kernel never gathers: for each block of 2048 rows it visits the 50 tiles of 640 columns, adding to three
  per-row accumulators the tile's row sum of lσ(-x) and the tile's sums of lσ(x) and lσ(-x) masked by "this column is the
  row's token".  Over the extended reals the tile sums add up to the sum over the vocabulary, and the masked sums to the
  single term at the token (Spec.lean, Algebra.lean): laws of finite sums in a commutative monoid, which need no
  finiteness.  The masked sum finds the token's column only if the token IS a column: for a token outside [0, 32000) the
  kernel adds nothing while the reference wraps a negative index around or fills in its out-of-range value, and the two
  results differ.  The precondition therefore carries, beside the finiteness of the logits, that every token id lies in
  [0, 32000); PreTokens.lean reads that off it, and it is the only part of the precondition the proof uses.

  The kernel side: KernelPieces.lean (what one grid point leaves in each accumulator), KernelTerms.lean (those terms at a
  row, on the extended reals), KernelAccum.lean (the accumulators after each point, by induction on the point),
  KernelArrays.lean (the three result arrays after the region), KernelTail.lean (the program after the region is the
  shared tail), KernelValue.lean (the run ends at the specification's loss).  The reference side: RefRun.lean and the
  modules it is read through (RefValue.lean: the run ends at the same loss).  Both frames of the kernel are the
  generated ones; the reference's is its run with the result dropped; the ideal pass rewrote nothing.
-/
import proofs.«423520_j8486855376997_1_alg».proof.Defs
import proofs.«423520_j8486855376997_1_alg».proof.Proof.Gen.Kernel
import proofs.«423520_j8486855376997_1_alg».proof.Proof.Gen.Kernel.Skeleton
import proofs.«423520_j8486855376997_1_alg».proof.Proof.Gen.Kernel.Launch
import proofs.«423520_j8486855376997_1_alg».proof.Proof.Gen.Kernel.Points
import proofs.«423520_j8486855376997_1_alg».proof.Proof.Gen.Kernel.Frame
import proofs.«423520_j8486855376997_1_alg».proof.Proof.Gen.KernelIdeal
import proofs.«423520_j8486855376997_1_alg».proof.Proof.Gen.KernelIdeal.Skeleton
import proofs.«423520_j8486855376997_1_alg».proof.Proof.Gen.KernelIdeal.Launch
import proofs.«423520_j8486855376997_1_alg».proof.Proof.Gen.KernelIdeal.Points
import proofs.«423520_j8486855376997_1_alg».proof.Proof.Gen.KernelIdeal.Frame
import proofs.«423520_j8486855376997_1_alg».proof.Proof.Gen.ReferenceIdeal
import proofs.«423520_j8486855376997_1_alg».proof.Proof.Gen.Pre_finite_inputs
import proofs.«423520_j8486855376997_1_alg».proof.Proof.PreTokens
import proofs.«423520_j8486855376997_1_alg».proof.Proof.KernelValue
import proofs.«423520_j8486855376997_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: it terminates and writes neither argument. -/
theorem frame_referenceIdeal : Cert.frame_ReferenceIdeal := fun m ρ _ => Cert.ReferenceIdeal.RefValue.run_frame m ρ

/-- From memories that agree on the arguments and satisfy the precondition, both idealized programs end with the
    specification's loss of those arguments in their result buffers. -/
theorem algebraic : Cert.algebraic_KernelIdeal_ReferenceIdeal := by
  intro m ρ m' ρ' hpre hagree
  have htok : ∀ (c : Dev Cert.KernelIdeal.nD) (j : Cert.KernelIdeal.S4x1024.Idx),
      Cert.LossSpec.InRange ((m ((c.tc : Thread Cert.KernelIdeal.nD Cert.KernelIdeal.τ).loc Cert.KernelIdeal.main_arg1) : IVec Cert.KernelIdeal.S4x1024 32) j) :=
    fun c j => Cert.PreTokens.tokens_in_range _ _ (hpre c) j
  have htok' : ∀ (c : Dev Cert.ReferenceIdeal.nD) (j : Cert.ReferenceIdeal.S4x1024.Idx),
      Cert.LossSpec.InRange (m' ((c.tc : Thread Cert.ReferenceIdeal.nD Cert.ReferenceIdeal.τ).loc Cert.ReferenceIdeal.main_arg1) j) := by
    intro c j
    rw [(hagree c).2]
    exact htok c j
  refine ⟨_, Cert.KernelIdeal.Value.run_loss m ρ htok, ?_⟩
  refine (θ_run Cert.ReferenceIdeal.defs _ _).mono (fun _ h c => ⟨(h c).1.trans ?_, (h c).2⟩)
    (Cert.ReferenceIdeal.RefValue.run_loss m' ρ' htok')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
